-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S2x3 : Shape := ⟨2, ![2, 3]⟩
abbrev S4x64 : Shape := ⟨2, ![4, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S2x3 : S_.BroadcastsInDim S2x3 (![] : Fin 0 → Fin S2x3.rank)
  reducesTo_S2x3_S_d0_1 : S2x3.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S64 .f32) (main_arg8 : FVec F S64x3 .f32) (main_arg9 : FVec F S3 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x3 .f32 := Host.absf main_arg8
  let main_cst_14 : FVec F S_ .f32 := constant S_ .f32 0x7F800000#32
  let main_v40 : FVec F S64x3 .f32 := broadcastInDim S64x3 ![] bcast_S_S64x3 main_cst_14
  let main_v41 : IVec S64x3 1 := cmpf .olt main_v39 main_v40
  let main_c_15 : IVec S_ 1 := constantI S_ 1 1#1
  let main_v42 : IVec S_ 1 := (fun x v => Host.reduce IntOp.andi x v reducesTo_S64x3_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S64x3 .f32) (main_arg9 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S2097152x4 .f32) (main_arg1 : FVec F S2x3 .f32) (main_arg2 : FVec F S4x64 .f32) (main_arg3 : FVec F S64 .f32) (main_arg4 : FVec F S64x64 .f32) (main_arg5 : FVec F S64 .f32) (main_arg6 : FVec F S64x64 .f32) (main_arg7 : FVec F S64 .f32) (main_arg8 : FVec F S64x3 .f32) (main_arg9 : FVec F S3 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S2x3 .f32 := Host.absf main_arg1
  let main_cst_0 : FVec F S_ .f32 := constant S_ .f32 0x7F800000#32
  let main_v5 : FVec F S2x3 .f32 := broadcastInDim S2x3 ![] bcast_S_S2x3 main_cst_0
  let main_v6 : IVec S2x3 1 := cmpf .olt main_v4 main_v5
  let main_c_1 : IVec S_ 1 := constantI S_ 1 1#1
  let main_v7 : IVec S_ 1 := (fun x v => Host.reduce IntOp.andi x v reducesTo_S2x3_S_d0_1 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S2097152x4 : Shape := ⟨2, ![2097152, 4]⟩
abbrev S2x3 : Shape := ⟨2, ![2, 3]⟩
abbrev S4x64 : Shape := ⟨2, ![4, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S4x4 : Shape := ⟨2, ![4, 4]⟩
abbrev S_ : Shape := ⟨0, ![]⟩
abbrev S4x1x4x1 : Shape := ⟨4, ![4, 1, 4, 1]⟩
abbrev S1x4x1x64 : Shape := ⟨4, ![1, 4, 1, 64]⟩
abbrev S4x4x4x64 : Shape := ⟨4, ![4, 4, 4, 64]⟩
abbrev S16x256 : Shape := ⟨2, ![16, 256]⟩
abbrev S256x16 : Shape := ⟨2, ![256, 16]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64x1x3 : Shape := ⟨4, ![1, 64, 1, 3]⟩
abbrev S4x64x4x3 : Shape := ⟨4, ![4, 64, 4, 3]⟩
abbrev S256x12 : Shape := ⟨2, ![256, 12]⟩
abbrev S12x256 : Shape := ⟨2, ![12, 256]⟩
abbrev S1x64 : Shape := ⟨2, ![1, 64]⟩
abbrev S256 : Shape := ⟨1, ![256]⟩
abbrev S256x1 : Shape := ⟨2, ![256, 1]⟩
abbrev S1x3 : Shape := ⟨2, ![1, 3]⟩
abbrev S4x3 : Shape := ⟨2, ![4, 3]⟩
abbrev S12 : Shape := ⟨1, ![12]⟩
abbrev S12x1 : Shape := ⟨2, ![12, 1]⟩
abbrev S1 : Shape := ⟨1, ![1]⟩
abbrev S4 : Shape := ⟨1, ![4]⟩
abbrev S1x4 : Shape := ⟨2, ![1, 4]⟩
abbrev S32x4 : Shape := ⟨2, ![32, 4]⟩
abbrev S128 : Shape := ⟨1, ![128]⟩
abbrev S128x1 : Shape := ⟨2, ![128, 1]⟩
abbrev S96 : Shape := ⟨1, ![96]⟩
abbrev S96x1 : Shape := ⟨2, ![96, 1]⟩
abbrev S1x128 : Shape := ⟨2, ![1, 128]⟩
abbrev S96x128 : Shape := ⟨2, ![96, 128]⟩
abbrev S65536x128 : Shape := ⟨2, ![65536, 128]⟩
abbrev S65536x96 : Shape := ⟨2, ![65536, 96]⟩
abbrev S256x128 : Shape := ⟨2, ![256, 128]⟩
abbrev S256x96 : Shape := ⟨2, ![256, 96]⟩
abbrev S128x256 : Shape := ⟨2, ![128, 256]⟩
abbrev S96x256 : Shape := ⟨2, ![96, 256]⟩
abbrev S2097152x3 : Shape := ⟨2, ![2097152, 3]⟩

abbrev nBuf : Space → Nat
  | .hbm => 158
  | .vmem => 15
  | .smem => 0
  | _ => 0

abbrev hbmTy0_0 (i : Nat) : BufTy := match i % 128 with
  | 0 => ⟨S2097152x4, .f32⟩
  | 1 => ⟨S2x3, .f32⟩
  | 2 => ⟨S4x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x3, .f32⟩
  | 9 => ⟨S3, .f32⟩
  | 10 => ⟨S4x4, .i32⟩
  | 11 => ⟨S4x4, .i32⟩
  | 12 => ⟨S_, .i32⟩
  | 13 => ⟨S4x4, .i32⟩
  | 14 => ⟨S4x4, .i32⟩
  | 15 => ⟨S4x4, .i1⟩
  | 16 => ⟨S4x4, .f32⟩
  | 17 => ⟨S4x1x4x1, .f32⟩
  | 18 => ⟨S1x4x1x64, .f32⟩
  | 19 => ⟨S4x4x4x64, .f32⟩
  | 20 => ⟨S4x4x4x64, .f32⟩
  | 21 => ⟨S4x4x4x64, .f32⟩
  | 22 => ⟨S16x256, .f32⟩
  | 23 => ⟨S256x16, .f32⟩
  | 24 => ⟨S256x16, .bf16⟩
  | 25 => ⟨S4x1x4x1, .f32⟩
  | 26 => ⟨S1x64x1x64, .f32⟩
  | 27 => ⟨S4x64x4x64, .f32⟩
  | 28 => ⟨S4x64x4x64, .f32⟩
  | 29 => ⟨S4x64x4x64, .f32⟩
  | 30 => ⟨S256x256, .f32⟩
  | 31 => ⟨S256x256, .f32⟩
  | 32 => ⟨S256x256, .bf16⟩
  | 33 => ⟨S4x1x4x1, .f32⟩
  | 34 => ⟨S1x64x1x64, .f32⟩
  | 35 => ⟨S4x64x4x64, .f32⟩
  | 36 => ⟨S4x64x4x64, .f32⟩
  | 37 => ⟨S4x64x4x64, .f32⟩
  | 38 => ⟨S256x256, .f32⟩
  | 39 => ⟨S256x256, .f32⟩
  | 40 => ⟨S256x256, .bf16⟩
  | 41 => ⟨S4x1x4x1, .f32⟩
  | 42 => ⟨S1x64x1x3, .f32⟩
  | 43 => ⟨S4x64x4x3, .f32⟩
  | 44 => ⟨S4x64x4x3, .f32⟩
  | 45 => ⟨S4x64x4x3, .f32⟩
  | 46 => ⟨S256x12, .f32⟩
  | 47 => ⟨S12x256, .f32⟩
  | 48 => ⟨S12x256, .bf16⟩
  | 49 => ⟨S1x64, .f32⟩
  | 50 => ⟨S4x64, .f32⟩
  | 51 => ⟨S256, .f32⟩
  | 52 => ⟨S256x1, .f32⟩
  | 53 => ⟨S1x64, .f32⟩
  | 54 => ⟨S4x64, .f32⟩
  | 55 => ⟨S256, .f32⟩
  | 56 => ⟨S256x1, .f32⟩
  | 57 => ⟨S1x64, .f32⟩
  | 58 => ⟨S4x64, .f32⟩
  | 59 => ⟨S256, .f32⟩
  | 60 => ⟨S256x1, .f32⟩
  | 61 => ⟨S1x3, .f32⟩
  | 62 => ⟨S4x3, .f32⟩
  | 63 => ⟨S12, .f32⟩
  | 64 => ⟨S12x1, .f32⟩
  | 65 => ⟨S1x3, .f32⟩
  | 66 => ⟨S3, .f32⟩
  | 67 => ⟨S_, .f32⟩
  | 68 => ⟨S1, .f32⟩
  | 69 => ⟨S1, .f32⟩
  | 70 => ⟨S4, .f32⟩
  | 71 => ⟨S1x4, .f32⟩
  | 72 => ⟨S32x4, .f32⟩
  | 73 => ⟨S128, .f32⟩
  | 74 => ⟨S128x1, .f32⟩
  | 75 => ⟨S1x3, .f32⟩
  | 76 => ⟨S3, .f32⟩
  | 77 => ⟨S_, .f32⟩
  | 78 => ⟨S1, .f32⟩
  | 79 => ⟨S4, .f32⟩
  | 80 => ⟨S1x4, .f32⟩
  | 81 => ⟨S32x4, .f32⟩
  | 82 => ⟨S128, .f32⟩
  | 83 => ⟨S128x1, .f32⟩
  | 84 => ⟨S96, .i32⟩
  | 85 => ⟨S96x1, .i32⟩
  | 86 => ⟨S128, .i32⟩
  | 87 => ⟨S1x128, .i32⟩
  | 88 => ⟨S_, .i32⟩
  | 89 => ⟨S_, .i32⟩
  | 90 => ⟨S1x128, .i32⟩
  | 91 => ⟨S1x128, .i32⟩
  | 92 => ⟨S1x128, .i32⟩
  | 93 => ⟨S_, .i32⟩
  | 94 => ⟨S1x128, .i32⟩
  | 95 => ⟨S1x128, .i1⟩
  | 96 => ⟨S1x128, .i32⟩
  | 97 => ⟨S1x128, .i32⟩
  | 98 => ⟨S_, .i32⟩
  | 99 => ⟨S1x128, .i32⟩
  | 100 => ⟨S1x128, .i1⟩
  | 101 => ⟨S1x128, .i1⟩
  | 102 => ⟨S_, .i32⟩
  | 103 => ⟨S1x128, .i32⟩
  | 104 => ⟨S1x128, .i32⟩
  | 105 => ⟨S1x128, .i32⟩
  | 106 => ⟨S_, .i32⟩
  | 107 => ⟨S_, .i32⟩
  | 108 => ⟨S96x1, .i32⟩
  | 109 => ⟨S96x1, .i32⟩
  | 110 => ⟨S96x1, .i32⟩
  | 111 => ⟨S_, .i32⟩
  | 112 => ⟨S96x1, .i32⟩
  | 113 => ⟨S96x1, .i1⟩
  | 114 => ⟨S96x1, .i32⟩
  | 115 => ⟨S96x1, .i32⟩
  | 116 => ⟨S_, .i32⟩
  | 117 => ⟨S96x1, .i32⟩
  | 118 => ⟨S96x1, .i1⟩
  | 119 => ⟨S96x1, .i1⟩
  | 120 => ⟨S_, .i32⟩
  | 121 => ⟨S96x1, .i32⟩
  | 122 => ⟨S96x1, .i32⟩
  | 123 => ⟨S96x1, .i32⟩
  | 124 => ⟨S96x128, .i32⟩
  | 125 => ⟨S96x128, .i32⟩
  | 126 => ⟨S96x128, .i1⟩
  | 127 => ⟨S_, .i32⟩
  | _ => ⟨S2097152x4, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S1x128, .i32⟩
  | 6 => ⟨S1x128, .i32⟩
  | 7 => ⟨S_, .i32⟩
  | 8 => ⟨S1x128, .i32⟩
  | 9 => ⟨S1x128, .i1⟩
  | 10 => ⟨S_, .i32⟩
  | 11 => ⟨S1x128, .i32⟩
  | 12 => ⟨S1x128, .i1⟩
  | 13 => ⟨S_, .i32⟩
  | 14 => ⟨S_, .i1⟩
  | 15 => ⟨S1x128, .i1⟩
  | 16 => ⟨S1x128, .i1⟩
  | 17 => ⟨S1x128, .i1⟩
  | 18 => ⟨S1x128, .i32⟩
  | 19 => ⟨S1x128, .i32⟩
  | 20 => ⟨S1x128, .i32⟩
  | 21 => ⟨S_, .i32⟩
  | 22 => ⟨S1x128, .i32⟩
  | 23 => ⟨S1x128, .i1⟩
  | 24 => ⟨S96x128, .i1⟩
  | 25 => ⟨S96x128, .i1⟩
  | 26 => ⟨S96x128, .f32⟩
  | 27 => ⟨S65536x128, .f32⟩
  | 28 => ⟨S65536x96, .f32⟩
  | 29 => ⟨S2097152x3, .f32⟩
  | _ => ⟨S2097152x4, .f32⟩

abbrev hbmTy (i : Nat) : BufTy := match i / 128 with
  | 0 => hbmTy0_0 i
  | 1 => hbmTy0_1 i
  | _ => ⟨S2097152x4, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x16, .bf16⟩
  | .local _ .vmem, ⟨3, _⟩ => ⟨S256x1, .f32⟩
  | .local _ .vmem, ⟨4, _⟩ => ⟨S256x256, .bf16⟩
  | .local _ .vmem, ⟨5, _⟩ => ⟨S256x1, .f32⟩
  | .local _ .vmem, ⟨6, _⟩ => ⟨S256x256, .bf16⟩
  | .local _ .vmem, ⟨7, _⟩ => ⟨S256x1, .f32⟩
  | .local _ .vmem, ⟨8, _⟩ => ⟨S12x256, .bf16⟩
  | .local _ .vmem, ⟨9, _⟩ => ⟨S12x1, .f32⟩
  | .local _ .vmem, ⟨10, _⟩ => ⟨S128x1, .f32⟩
  | .local _ .vmem, ⟨11, _⟩ => ⟨S128x1, .f32⟩
  | .local _ .vmem, ⟨12, _⟩ => ⟨S96x128, .f32⟩
  | .local _ .vmem, ⟨13, _⟩ => ⟨S256x96, .f32⟩
  | .local _ .vmem, ⟨14, _⟩ => ⟨S256x96, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_1 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_c : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_0 : Ref sig .tc := ⟨.hbm, 102, rfl⟩
abbrev main_call4_v12 : Ref sig .tc := ⟨.hbm, 103, rfl⟩
abbrev main_call4_v13 : Ref sig .tc := ⟨.hbm, 104, rfl⟩
abbrev main_v55 : Ref sig .tc := ⟨.hbm, 105, rfl⟩
abbrev main_c_2 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_c : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_0 : Ref sig .tc := ⟨.hbm, 120, rfl⟩
abbrev main_call5_v12 : Ref sig .tc := ⟨.hbm, 121, rfl⟩
abbrev main_call5_v13 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_c_3 : Ref sig .tc := ⟨.hbm, 127, rfl⟩
abbrev main_call6_v0 : Ref sig .tc := ⟨.hbm, 128, rfl⟩
abbrev main_call6_c : Ref sig .tc := ⟨.hbm, 129, rfl⟩
abbrev main_call6_v1 : Ref sig .tc := ⟨.hbm, 130, rfl⟩
abbrev main_call6_c_0 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_call6_c_1 : Ref sig .tc := ⟨.hbm, 135, rfl⟩
abbrev main_call6_v5 : Ref sig .tc := ⟨.hbm, 136, rfl⟩
abbrev main_call6_v6 : Ref sig .tc := ⟨.hbm, 137, rfl⟩
abbrev main_call6_c_2 : Ref sig .tc := ⟨.hbm, 138, rfl⟩
abbrev main_call6_v7 : Ref sig .tc := ⟨.hbm, 139, rfl⟩
abbrev main_call6_v8 : Ref sig .tc := ⟨.hbm, 140, rfl⟩
abbrev main_call6_c_3 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_v12 : Ref sig .tc := ⟨.hbm, 145, rfl⟩
abbrev main_call6_v13 : Ref sig .tc := ⟨.hbm, 146, rfl⟩
abbrev main_call6_v14 : Ref sig .tc := ⟨.hbm, 147, rfl⟩
abbrev main_v60 : Ref sig .tc := ⟨.hbm, 148, rfl⟩
abbrev main_c_4 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S96x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x96 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S4x64_S1x4x1x64_1_3 : S4x64.BroadcastsInDim S1x4x1x64 (![1, 3] : Fin 2 → Fin S1x4x1x64.rank)
  bcast_S4x1x4x1_S4x4x4x64_0_1_2_3 : S4x1x4x1.BroadcastsInDim S4x4x4x64 (![0, 1, 2, 3] : Fin 4 → Fin S4x4x4x64.rank)
  bcast_S1x4x1x64_S4x4x4x64_0_1_2_3 : S1x4x1x64.BroadcastsInDim S4x4x4x64 (![0, 1, 2, 3] : Fin 4 → Fin S4x4x4x64.rank)
  shapeCasts_S4x4x4x64_S16x256 : S4x4x4x64.ShapeCasts S16x256
  transposes_S16x256_S256x16_1_0 : S16x256.Transposes [1, 0] S256x16
  bitsLt_bf16_f32 : FTy.bits .bf16 < FTy.bits .f32
  bcast_S64x64_S1x64x1x64_1_3 : S64x64.BroadcastsInDim S1x64x1x64 (![1, 3] : Fin 2 → Fin S1x64x1x64.rank)
  bcast_S4x1x4x1_S4x64x4x64_0_1_2_3 : S4x1x4x1.BroadcastsInDim S4x64x4x64 (![0, 1, 2, 3] : Fin 4 → Fin S4x64x4x64.rank)
  bcast_S1x64x1x64_S4x64x4x64_0_1_2_3 : S1x64x1x64.BroadcastsInDim S4x64x4x64 (![0, 1, 2, 3] : Fin 4 → Fin S4x64x4x64.rank)
  shapeCasts_S4x64x4x64_S256x256 : S4x64x4x64.ShapeCasts S256x256
  transposes_S256x256_S256x256_1_0 : S256x256.Transposes [1, 0] S256x256
  bcast_S64x3_S1x64x1x3_1_3 : S64x3.BroadcastsInDim S1x64x1x3 (![1, 3] : Fin 2 → Fin S1x64x1x3.rank)
  bcast_S4x1x4x1_S4x64x4x3_0_1_2_3 : S4x1x4x1.BroadcastsInDim S4x64x4x3 (![0, 1, 2, 3] : Fin 4 → Fin S4x64x4x3.rank)
  bcast_S1x64x1x3_S4x64x4x3_0_1_2_3 : S1x64x1x3.BroadcastsInDim S4x64x4x3 (![0, 1, 2, 3] : Fin 4 → Fin S4x64x4x3.rank)
  shapeCasts_S4x64x4x3_S256x12 : S4x64x4x3.ShapeCasts S256x12
  transposes_S256x12_S12x256_1_0 : S256x12.Transposes [1, 0] S12x256
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  shapeCasts_S256_S256x1 : S256.ShapeCasts S256x1
  shapeCasts_S3_S1x3 : S3.ShapeCasts S1x3
  bcast_S1x3_S4x3_0_1 : S1x3.BroadcastsInDim S4x3 (![0, 1] : Fin 2 → Fin S4x3.rank)
  shapeCasts_S4x3_S12 : S4x3.ShapeCasts S12
  shapeCasts_S12_S12x1 : S12.ShapeCasts S12x1
  slices_S2x3_S1x3_0_0 : S2x3.Slices ![0, 0] S1x3
  shapeCasts_S1x3_S3 : S1x3.ShapeCasts S3
  bcast_S_S1 : S_.BroadcastsInDim S1 (![] : Fin 0 → Fin S1.rank)
  concatenates_S3_S1_S4_d0 : Shape.Concatenates [S3, S1] S4 0
  shapeCasts_S4_S1x4 : S4.ShapeCasts S1x4
  bcast_S1x4_S32x4_0_1 : S1x4.BroadcastsInDim S32x4 (![0, 1] : Fin 2 → Fin S32x4.rank)
  shapeCasts_S32x4_S128 : S32x4.ShapeCasts S128
  shapeCasts_S128_S128x1 : S128.ShapeCasts S128x1
  slices_S2x3_S1x3_1_0 : S2x3.Slices ![1, 0] S1x3
  bcast_S96_S96x1_0 : S96.BroadcastsInDim S96x1 (![0] : Fin 1 → Fin S96x1.rank)
  bcast_S128_S1x128_1 : S128.BroadcastsInDim S1x128 (![1] : Fin 1 → Fin S1x128.rank)
  bcast_S_S1x128 : S_.BroadcastsInDim S1x128 (![] : Fin 0 → Fin S1x128.rank)
  bcast_S_S96x1 : S_.BroadcastsInDim S96x1 (![] : Fin 0 → Fin S96x1.rank)
  bcast_S1x128_S96x128_0_1 : S1x128.BroadcastsInDim S96x128 (![0, 1] : Fin 2 → Fin S96x128.rank)
  bcast_S96x1_S96x128_0_1 : S96x1.BroadcastsInDim S96x128 (![0, 1] : Fin 2 → Fin S96x128.rank)
  shapeCasts_S2097152x4_S65536x128 : S2097152x4.ShapeCasts S65536x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x256 : S128x1.Broadcasts S128x256
  natLt_1_32 : 1 < 32
  inb_S96x128_S96x128_0_0 : ∀ a, (![0, 0] : Fin 2 → Nat) a + S96x128.size a ≤ S96x128.size a
  h_S96x128 : 0 < S96x128.numel
  shapeCasts_S96x128_S96x128 : S96x128.ShapeCasts S96x128
  slices_S128x256_o0_0_S16x256 : S128x256.Slices ![0, 0] S16x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S12x256_S12x256_0_0 : ∀ a, (![0, 0] : Fin 2 → Nat) a + S12x256.size a ≤ S12x256.size a
  h_S12x256 : 0 < S12x256.numel
  shapeCasts_S12x256_S12x256 : S12x256.ShapeCasts S12x256
  inb_S12x1_S12x1_0_0 : ∀ a, (![0, 0] : Fin 2 → Nat) a + S12x1.size a ≤ S12x1.size a
  h_S12x1 : 0 < S12x1.numel
  shapeCasts_S12x1_S12x1 : S12x1.ShapeCasts S12x1
  broadcasts_S12x1_S12x256 : S12x1.Broadcasts S12x256
  slices_S128x256_o16_0_S16x256 : S128x256.Slices ![16, 0] S16x256
  slices_S128x256_o32_0_S16x256 : S128x256.Slices ![32, 0] S16x256
  slices_S128x256_o48_0_S16x256 : S128x256.Slices ![48, 0] S16x256
  slices_S128x256_o64_0_S16x256 : S128x256.Slices ![64, 0] S16x256
  slices_S128x256_o80_0_S16x256 : S128x256.Slices ![80, 0] S16x256
  slices_S128x256_o96_0_S16x256 : S128x256.Slices ![96, 0] S16x256
  slices_S128x256_o112_0_S16x256 : S128x256.Slices ![112, 0] S16x256
  concatenates_S12x256_S12x256_S12x256_S12x256_S12x256_S12x256_S12x256_S12x256_S96x256_d0 : Shape.Concatenates [S12x256, S12x256, S12x256, S12x256, S12x256, S12x256, S12x256, S12x256] S96x256 0
  transposes_S96x256_p1_0_S256x96 : S96x256.Transposes [1, 0] S256x96
  inb_S256x96_S256x96_0_0 : ∀ a, (![0, 0] : Fin 2 → Nat) a + S256x96.size a ≤ S256x96.size a
  h_S256x96 : 0 < S256x96.numel
  shapeCasts_S65536x96_S2097152x3 : S65536x96.ShapeCasts S2097152x3
  dot_S96x128_S128x256_S96x256_1_0_0_1_n_n_wf : DotDims.WF S96x128 S128x256 S96x256 [1] [0] [0] [1] [] []
  dot_S256x16_S16x256_S256x256_1_0_0_1_n_n_wf : DotDims.WF S256x16 S16x256 S256x256 [1] [0] [0] [1] [] []
  dot_S256x256_S256x256_S256x256_1_0_0_1_n_n_wf : DotDims.WF S256x256 S256x256 S256x256 [1] [0] [0] [1] [] []
  dot_S12x256_S256x256_S12x256_1_0_0_1_n_n_wf : DotDims.WF S12x256 S256x256 S12x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S65536x128.size a
  hwx0_0 : ∀ i : grid0.Coords, EltTy.bits .f32 = 32 ∨ (Rect.block (s := S65536x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .bf16 = 32 ∨ (Rect.block (s := S256x16) S256x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x256.size a ≤ S12x256.size a
  hwx0_7 : ∀ i : grid0.Coords, EltTy.bits .bf16 = 32 ∨ (Rect.block (s := S12x256) S12x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S12x1.size a ≤ S12x1.size a
  hwx0_8 : ∀ i : grid0.Coords, EltTy.bits .f32 = 32 ∨ (Rect.block (s := S12x1) S12x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S96x128.size a ≤ S96x128.size a
  hwx0_11 : ∀ i : grid0.Coords, EltTy.bits .f32 = 32 ∨ (Rect.block (s := S96x128) S96x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x96.size a ≤ S65536x96.size a
  hwx0_12 : ∀ i : grid0.Coords, EltTy.bits .f32 = 32 ∨ (Rect.block (s := S65536x96) S256x96.size (cc0_transform_12 i) (hinb0_12 i)).WholeWords (EltTy.packing .f32)

variable [Facts₀]

def dot_S96x128_S128x256_S96x256_1_0_0_1_n_n : DotDims S96x128 S128x256 S96x256 where
  lhsContracting := [1]
  rhsContracting := [0]
  lhsNonContracting := [0]
  rhsNonContracting := [1]
  lhsBatch := []
  rhsBatch := []
  wf := dot_S96x128_S128x256_S96x256_1_0_0_1_n_n_wf
def dot_S256x16_S16x256_S256x256_1_0_0_1_n_n : DotDims S256x16 S16x256 S256x256 where
  lhsContracting := [1]
  rhsContracting := [0]
  lhsNonContracting := [0]
  rhsNonContracting := [1]
  lhsBatch := []
  rhsBatch := []
  wf := dot_S256x16_S16x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S12x256_S256x256_S12x256_1_0_0_1_n_n : DotDims S12x256 S256x256 S12x256 where
  lhsContracting := [1]
  rhsContracting := [0]
  lhsNonContracting := [0]
  rhsNonContracting := [1]
  lhsBatch := []
  rhsBatch := []
  wf := dot_S12x256_S256x256_S12x256_1_0_0_1_n_n_wf

abbrev win0_0 : Pipeline.Window sig grid0 :=
  Pipeline.Window.ofSpec (Memref.whole main_v66) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S12x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S12x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v50) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v65) S96x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v67) S256x96.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S2x3 : Shape := ⟨2, ![2, 3]⟩
abbrev S4x64 : Shape := ⟨2, ![4, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S2097152x3 : Shape := ⟨2, ![2097152, 3]⟩
abbrev S1x3 : Shape := ⟨2, ![1, 3]⟩
abbrev S_ : Shape := ⟨0, ![]⟩
abbrev S2097152 : Shape := ⟨1, ![2097152]⟩
abbrev S2097152x64 : Shape := ⟨2, ![2097152, 64]⟩
abbrev S1x64 : Shape := ⟨2, ![1, 64]⟩
abbrev S2097152x1 : Shape := ⟨2, ![2097152, 1]⟩

abbrev nBuf : Space → Nat
  | .hbm => 54
  | .vmem => 0
  | .smem => 0
  | _ => 0

abbrev bufTy : (tb : Table) → Fin (tcTables nBuf tb) → BufTy
  | .hbm, ⟨0, _⟩ => ⟨S2097152x4, .f32⟩
  | .hbm, ⟨1, _⟩ => ⟨S2x3, .f32⟩
  | .hbm, ⟨2, _⟩ => ⟨S4x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x3, .f32⟩
  | .hbm, ⟨9, _⟩ => ⟨S3, .f32⟩
  | .hbm, ⟨10, _⟩ => ⟨S2097152x3, .f32⟩
  | .hbm, ⟨11, _⟩ => ⟨S1x3, .f32⟩
  | .hbm, ⟨12, _⟩ => ⟨S3, .f32⟩
  | .hbm, ⟨13, _⟩ => ⟨S1x3, .f32⟩
  | .hbm, ⟨14, _⟩ => ⟨S2097152x3, .f32⟩
  | .hbm, ⟨15, _⟩ => ⟨S2097152x3, .i1⟩
  | .hbm, ⟨16, _⟩ => ⟨S1x3, .f32⟩
  | .hbm, ⟨17, _⟩ => ⟨S3, .f32⟩
  | .hbm, ⟨18, _⟩ => ⟨S1x3, .f32⟩
  | .hbm, ⟨19, _⟩ => ⟨S2097152x3, .f32⟩
  | .hbm, ⟨20, _⟩ => ⟨S2097152x3, .i1⟩
  | .hbm, ⟨21, _⟩ => ⟨S2097152x3, .i1⟩
  | .hbm, ⟨22, _⟩ => ⟨S_, .i1⟩
  | .hbm, ⟨23, _⟩ => ⟨S2097152, .i1⟩
  | .hbm, ⟨24, _⟩ => ⟨S2097152x64, .f32⟩
  | .hbm, ⟨25, _⟩ => ⟨S1x64, .f32⟩
  | .hbm, ⟨26, _⟩ => ⟨S2097152x64, .f32⟩
  | .hbm, ⟨27, _⟩ => ⟨S2097152x64, .f32⟩
  | .hbm, ⟨28, _⟩ => ⟨S_, .f32⟩
  | .hbm, ⟨29, _⟩ => ⟨S2097152x64, .f32⟩
  | .hbm, ⟨30, _⟩ => ⟨S2097152x64, .f32⟩
  | .hbm, ⟨31, _⟩ => ⟨S2097152x64, .f32⟩
  | .hbm, ⟨32, _⟩ => ⟨S1x64, .f32⟩
  | .hbm, ⟨33, _⟩ => ⟨S2097152x64, .f32⟩
  | .hbm, ⟨34, _⟩ => ⟨S2097152x64, .f32⟩
  | .hbm, ⟨35, _⟩ => ⟨S_, .f32⟩
  | .hbm, ⟨36, _⟩ => ⟨S2097152x64, .f32⟩
  | .hbm, ⟨37, _⟩ => ⟨S2097152x64, .f32⟩
  | .hbm, ⟨38, _⟩ => ⟨S2097152x64, .f32⟩
  | .hbm, ⟨39, _⟩ => ⟨S1x64, .f32⟩
  | .hbm, ⟨40, _⟩ => ⟨S2097152x64, .f32⟩
  | .hbm, ⟨41, _⟩ => ⟨S2097152x64, .f32⟩
  | .hbm, ⟨42, _⟩ => ⟨S_, .f32⟩
  | .hbm, ⟨43, _⟩ => ⟨S2097152x64, .f32⟩
  | .hbm, ⟨44, _⟩ => ⟨S2097152x64, .f32⟩
  | .hbm, ⟨45, _⟩ => ⟨S2097152x3, .f32⟩
  | .hbm, ⟨46, _⟩ => ⟨S1x3, .f32⟩
  | .hbm, ⟨47, _⟩ => ⟨S2097152x3, .f32⟩
  | .hbm, ⟨48, _⟩ => ⟨S2097152x3, .f32⟩
  | .hbm, ⟨49, _⟩ => ⟨S2097152x1, .i1⟩
  | .hbm, ⟨50, _⟩ => ⟨S_, .f32⟩
  | .hbm, ⟨51, _⟩ => ⟨S2097152x3, .f32⟩
  | .hbm, ⟨52, _⟩ => ⟨S2097152x3, .i1⟩
  | .hbm, ⟨53, _⟩ => ⟨S2097152x3, .f32⟩
  | _, _ => ⟨S2097152x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_cst : Ref sig .tc := ⟨.hbm, 42, rfl⟩
abbrev main_call2_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_call3_v0 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  slices_S2097152x4_S2097152x3_0_0 : S2097152x4.Slices ![0, 0] S2097152x3
  slices_S2x3_S1x3_0_0 : S2x3.Slices ![0, 0] S1x3
  shapeCasts_S1x3_S3 : S1x3.ShapeCasts S3
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  slices_S2x3_S1x3_1_0 : S2x3.Slices ![1, 0] S1x3
  reducesTo_S2097152x3_S2097152_d1 : S2097152x3.ReducesTo [1] S2097152
  h_S_ : 0 < S_.numel
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S2097152_S2097152x1_0 : S2097152.BroadcastsInDim S2097152x1 (![0] : Fin 1 → Fin S2097152x1.rank)
  bcast_S_S2097152x3 : S_.BroadcastsInDim S2097152x3 (![] : Fin 0 → Fin S2097152x3.rank)
  bcast_S2097152x1_S2097152x3_0_1 : S2097152x1.BroadcastsInDim S2097152x3 (![0, 1] : Fin 2 → Fin S2097152x3.rank)
  dot_S2097152x4_S4x64_S2097152x64_1_0_0_1_n_n_wf : DotDims.WF S2097152x4 S4x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x4_S4x64_S2097152x64_1_0_0_1_n_n : DotDims S2097152x4 S4x64 S2097152x64 where
  lhsContracting := [1]
  rhsContracting := [0]
  lhsNonContracting := [0]
  rhsNonContracting := [1]
  lhsBatch := []
  rhsBatch := []
  wf := dot_S2097152x4_S4x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.Spec.lean ====
/-
  The mathematics both programs compute, over the extended reals, with no program in sight.

  A point is a row of four numbers (x, y, z, t).  A four-layer perceptron (4 → 64 → 64 → 64 → 3, a rectifier
  after each of the first three layers) sends it to three numbers; the result keeps them when the point's first three
  coordinates lie in the box `bounds 0 k ≤ x k ≤ bounds 1 k`, and is zero otherwise.  One dense layer is
  `h ↦ (∑ k, h k · W k j) + b j`.
-/
import Idealize.ShloMosaic.PureOps.Ideal
import Idealize.ShloMosaic.Lib.ValueIdx

noncomputable section

namespace Cert.Spec

open Idealize.ShloMosaic Idealize.ShloMosaic.ValueIdx

/-- A matrix of extended reals, indexed as the printed programs index a rank-2 array. -/
abbrev Mat (a b : Nat) : Type := (⟨2, ![a, b]⟩ : Shape).Idx → EReal
/-- A vector of extended reals, indexed as the printed programs index a rank-1 array. -/
abbrev Row (a : Nat) : Type := (⟨1, ![a]⟩ : Shape).Idx → EReal

/-- One dense layer at output coordinate `j`: the weighted sum of the inputs plus the bias. -/
def dense {n m : Nat} (W : Mat n m) (b : Row m) (h : Fin n → EReal) (j : Fin m) : EReal :=
  (∑ k : Fin n, h k * W (ix2 k j)) + b (ix1 j)

/-- The rectifier. -/
def relu (x : EReal) : EReal := max x 0

/-- The perceptron: three rectified dense layers and a last dense layer. -/
def mlp (W1 : Mat 4 64) (b1 : Row 64) (W2 : Mat 64 64) (b2 : Row 64) (W3 : Mat 64 64) (b3 : Row 64) (W4 : Mat 64 3) (b4 : Row 3)
    (x : Fin 4 → EReal) : Fin 3 → EReal :=
  dense W4 b4 fun k3 => relu (dense W3 b3 (fun k2 => relu (dense W2 b2 (fun k1 => relu (dense W1 b1 x k1)) k2)) k3)

/-- The point's first three coordinates lie in the box. -/
def inside (bounds : Mat 2 3) (x : Fin 4 → EReal) : Prop :=
  ∀ k : Fin 3, bounds (ix2 0 k) ≤ x k.castSucc ∧ x k.castSucc ≤ bounds (ix2 1 k)

/-- The whole result: the perceptron of each point inside the box, zero at each point outside it. -/
def result (xt : Mat 2097152 4) (bounds : Mat 2 3) (W1 : Mat 4 64) (b1 : Row 64) (W2 : Mat 64 64) (b2 : Row 64) (W3 : Mat 64 64) (b3 : Row 64)
    (W4 : Mat 64 3) (b4 : Row 3) : Mat 2097152 3 := fun i =>
  haveI := Classical.propDecidable (inside bounds fun k => xt (ix2 (i 0) k))
  if inside bounds (fun k => xt (ix2 (i 0) k)) then mlp W1 b1 W2 b2 W3 b3 W4 b4 (fun k => xt (ix2 (i 0) k)) (i 1) else 0

/-- The indicator of two block numbers being equal: the entries of the identity matrix. -/
def delta (a b : Nat) : EReal := if a = b then 1 else 0

theorem delta_self (a : Nat) : delta a a = 1 := if_pos rfl
theorem delta_ne {a b : Nat} (h : a ≠ b) : delta a b = 0 := if_neg h

end Cert.Spec

end
-- ==== Proof.RefValue.lean ====
/-
  The reference's result is the specification's: the last stage of the reference program, read at a point p and an output
  coordinate j, is the perceptron of point p at j when the point's first three coordinates lie in the box, and zero otherwise.

  The reference computes a mask "some coordinate is below the lower corner or above the upper corner" (an or-reduction over
  the three coordinates) and selects zero where it holds; over a linear order that mask is the negation of "every coordinate
  lies between the corners".  Each dense layer is the host's matrix product read as a sum, plus the broadcast bias, and the
  rectifier is the maximum with zero.
-/
import proofs.«117370_g24309514896056_cont_sun_c4_343_38_alg».proof.Proof.RefRead
import proofs.«117370_g24309514896056_cont_sun_c4_343_38_alg».proof.Proof.Spec
import Idealize.ShloMosaic.Lib.ValueIdx
import Idealize.ShloMosaic.Lib.Pipeline.Value
import Idealize.ShloMosaic.Lib.ReduceAll
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- An or-fold over a finite set is 1 exactly when it started at 1 or met a 1. -/
theorem fold_ori_eq_one {ι : Type} [DecidableEq ι] (g : ι → BitVec 1) (b : BitVec 1) (s : Finset ι) :
    s.fold IntOp.ori b g = 1#1 ↔ b = 1#1 ∨ ∃ k ∈ s, g k = 1#1 := by
  induction s using Finset.induction_on with
  | empty => simp
  | insert a s ha ih =>
    rw [Finset.fold_insert ha, IntOp.ori_eq_one, ih]
    constructor
    · rintro (h | h | ⟨k, hk, h⟩)
      · exact Or.inr ⟨a, Finset.mem_insert_self _ _, h⟩
      · exact Or.inl h
      · exact Or.inr ⟨k, Finset.mem_insert_of_mem hk, h⟩
    · rintro (h | ⟨k, hk, h⟩)
      · exact Or.inr (Or.inl h)
      · rcases Finset.mem_insert.1 hk with rfl | hk
        · exact Or.inl h
        · exact Or.inr (Or.inr ⟨k, hk, h⟩)

/-- Axis 1 of the points-by-coordinates mask reduces onto the points. -/
theorem reduces_mask : S2097152x3.Reduces [1] S2097152 := by decide

/-- The index of point p with coordinate k inserted on the reduced axis is (p, k). -/
theorem lift_mask (p : Fin 2097152) (k : Fin 3) : reduces_mask.lift (ix1 p) k = ix2 p k :=
  funext fun a => Fin.ext (by match a with | ⟨0, _⟩ => rfl | ⟨1, _⟩ => rfl)

/-- The reduced mask at point p is 1 exactly when the mask is 1 at some coordinate of p. -/
theorem mask_any (x0 : Spec.Mat 2097152 4) (x1 : Spec.Mat 2 3) (p : Fin 2097152) :
    ReadP.val_main_v12 (F := Ideal) x0 x1 (ix1 p) = 1#1 ↔ ∃ k : Fin 3, ReadP.val_main_v11 (F := Ideal) x0 x1 (ix2 p k) = 1#1 := by
  unfold ReadP.val_main_v12
  rw [Host.reduce_eq_fold_single IntOp.ori _ _ reducesTo_S2097152x3_S2097152_d1 reduces_mask h_S_, fold_ori_eq_one]
  constructor
  · rintro (h | ⟨k, _, h⟩)
    · exact absurd h (by decide)
    · exact ⟨k, by rw [← lift_mask p k]; exact h⟩
  · rintro ⟨k, h⟩
    exact Or.inr ⟨k, Finset.mem_univ _, (congrArg (ReadP.val_main_v11 (F := Ideal) x0 x1) (lift_mask p k)).trans h⟩

/-- Coordinate k < 3 of a point among its four coordinates. -/
theorem idx_slice (p : Fin 2097152) (k : Fin 3) : ReadP.idx_main_v0 (ix2 p k) = ix2 p k.castSucc :=
  funext fun a => Fin.ext (by match a with | ⟨0, _⟩ => rfl | ⟨1, _⟩ => rfl)

/-- The broadcast lower corner at (p, k) is the box's row 0 at k. -/
theorem idx_lo (p : Fin 2097152) (k : Fin 3) :
    ReadP.idx_main_v1 (ReadP.idx_main_v2 (ReadP.idx_main_v3 (ReadP.idx_main_v4 (ix2 p k)))) = ix2 0 k :=
  funext fun a => Fin.ext (by match a with | ⟨0, _⟩ => rfl | ⟨1, _⟩ => exact Nat.mod_eq_of_lt k.isLt)

/-- The broadcast upper corner at (p, k) is the box's row 1 at k. -/
theorem idx_hi (p : Fin 2097152) (k : Fin 3) :
    ReadP.idx_main_v6 (ReadP.idx_main_v7 (ReadP.idx_main_v8 (ReadP.idx_main_v9 (ix2 p k)))) = ix2 1 k :=
  funext fun a => Fin.ext (by match a with | ⟨0, _⟩ => rfl | ⟨1, _⟩ => exact Nat.mod_eq_of_lt k.isLt)

/-- An ordered "less than" is the bit 1 exactly when the order holds. -/
theorem cmp_olt_eq_one (a b : EReal) : Ideal.cmp .olt a b = 1#1 ↔ a < b := by
  unfold Ideal.cmp
  by_cases h : a < b <;> simp [h]

/-- An ordered "greater than" is the bit 1 exactly when the reversed order holds. -/
theorem cmp_ogt_eq_one (a b : EReal) : Ideal.cmp .ogt a b = 1#1 ↔ b < a := by
  unfold Ideal.cmp
  by_cases h : b < a <;> simp [h]

/-- The mask at (p, k): coordinate k of point p is below the lower corner or above the upper corner. -/
theorem mask_apply (x0 : Spec.Mat 2097152 4) (x1 : Spec.Mat 2 3) (p : Fin 2097152) (k : Fin 3) :
    ReadP.val_main_v11 (F := Ideal) x0 x1 (ix2 p k) = 1#1 ↔
      x0 (ix2 p k.castSucc) < x1 (ix2 0 k) ∨ x1 (ix2 1 k) < x0 (ix2 p k.castSucc) := by
  rw [ReadP.val_main_v11_apply, IntOp.ori_eq_one, ReadP.val_main_v5_apply, ReadP.val_main_v10_apply, ReadP.val_main_v0_apply,
    ReadP.val_main_v4_apply, ReadP.val_main_v3_apply, ReadP.val_main_v2_apply, ReadP.val_main_v1_apply,
    ReadP.val_main_v9_apply, ReadP.val_main_v8_apply, ReadP.val_main_v7_apply, ReadP.val_main_v6_apply,
    idx_slice, idx_lo, idx_hi, Ideal.cmpf_def, Ideal.cmpf_def, cmp_olt_eq_one, cmp_ogt_eq_one]

/-- The reduced mask, broadcast along the output coordinates, at (p, j) is the reduced mask at p. -/
theorem idx_where (p : Fin 2097152) (j : Fin 3) : ReadP.idx_main_v32 (ReadP.idx_main_call3_v0 (ix2 p j)) = ix1 p :=
  funext fun a => Fin.ext (by match a with | ⟨0, _⟩ => rfl)

/-- The select's condition at (p, j) is 1 exactly when point p is not inside the box. -/
theorem cond_iff (x0 : Spec.Mat 2097152 4) (x1 : Spec.Mat 2 3) (p : Fin 2097152) (j : Fin 3) :
    ReadP.val_main_call3_v0 (F := Ideal) x0 x1 (ix2 p j) = 1#1 ↔ ¬ Spec.inside x1 (fun k => x0 (ix2 p k)) := by
  rw [ReadP.val_main_call3_v0_apply, ReadP.val_main_v32_apply, idx_where, mask_any]
  unfold Spec.inside
  rw [not_forall]
  refine exists_congr fun k => ?_
  rw [mask_apply, not_and_or, not_le, not_le]

theorem lidx13 (p : Fin 2097152) (j : Fin 64) (k : Fin 4) : ReadP.lidx_main_v13 (ix2 p j) k = ix2 p k :=
  funext fun a => Fin.ext (by match a with | ⟨0, _⟩ => rfl | ⟨1, _⟩ => rfl)
theorem ridx13 (p : Fin 2097152) (j : Fin 64) (k : Fin 4) : ReadP.ridx_main_v13 (ix2 p j) k = ix2 k j :=
  funext fun a => Fin.ext (by match a with | ⟨0, _⟩ => rfl | ⟨1, _⟩ => rfl)
theorem bidx15 (p : Fin 2097152) (j : Fin 64) : ReadP.idx_main_v14 (ReadP.idx_main_v15 (ix2 p j)) = ix1 j :=
  funext fun a => Fin.ext (by match a with | ⟨0, _⟩ => rfl)

/-- The first rectified layer at (p, j). -/
theorem layer1 (x0 : Spec.Mat 2097152 4) (x2 : Spec.Mat 4 64) (x3 : Spec.Row 64) (p : Fin 2097152) (j : Fin 64) :
    ReadP.val_main_v17 (F := Ideal) x0 x2 x3 (ix2 p j) = Spec.relu (Spec.dense x2 x3 (fun k => x0 (ix2 p k)) j) := by
  rw [ReadP.val_main_v17_apply, ReadP.val_main_v16_apply, ReadP.val_main_v13_apply, ReadP.val_main_v15_apply, ReadP.val_main_v14_apply,
    ReadP.val_main_call0_v0_apply, ReadP.val_main_call0_cst_apply, bidx15]
  simp only [lidx13, ridx13]
  rw [Ideal.maximumf_def, Ideal.addf_def]
  unfold Spec.relu Spec.dense
  exact congrArg _ Ideal.ofBits_zero_f32

theorem lidx18 (p : Fin 2097152) (j : Fin 64) (k : Fin 64) : ReadP.lidx_main_v18 (ix2 p j) k = ix2 p k :=
  funext fun a => Fin.ext (by match a with | ⟨0, _⟩ => rfl | ⟨1, _⟩ => rfl)
theorem ridx18 (p : Fin 2097152) (j : Fin 64) (k : Fin 64) : ReadP.ridx_main_v18 (ix2 p j) k = ix2 k j :=
  funext fun a => Fin.ext (by match a with | ⟨0, _⟩ => rfl | ⟨1, _⟩ => rfl)
theorem bidx20 (p : Fin 2097152) (j : Fin 64) : ReadP.idx_main_v19 (ReadP.idx_main_v20 (ix2 p j)) = ix1 j :=
  funext fun a => Fin.ext (by match a with | ⟨0, _⟩ => rfl)

/-- The second rectified layer at (p, j), from the first layer's row p. -/
theorem layer2 (x0 : Spec.Mat 2097152 4) (x2 : Spec.Mat 4 64) (x3 : Spec.Row 64) (x4 : Spec.Mat 64 64) (x5 : Spec.Row 64)
    (p : Fin 2097152) (j : Fin 64) :
    ReadP.val_main_v22 (F := Ideal) x0 x2 x3 x4 x5 (ix2 p j)
      = Spec.relu (Spec.dense x4 x5 (fun k => ReadP.val_main_v17 (F := Ideal) x0 x2 x3 (ix2 p k)) j) := by
  rw [ReadP.val_main_v22_apply, ReadP.val_main_v21_apply, ReadP.val_main_v18_apply, ReadP.val_main_v20_apply, ReadP.val_main_v19_apply,
    ReadP.val_main_call1_v0_apply, ReadP.val_main_call1_cst_apply, bidx20]
  simp only [lidx18, ridx18]
  rw [Ideal.maximumf_def, Ideal.addf_def]
  unfold Spec.relu Spec.dense
  exact congrArg _ Ideal.ofBits_zero_f32

theorem lidx23 (p : Fin 2097152) (j : Fin 64) (k : Fin 64) : ReadP.lidx_main_v23 (ix2 p j) k = ix2 p k :=
  funext fun a => Fin.ext (by match a with | ⟨0, _⟩ => rfl | ⟨1, _⟩ => rfl)
theorem ridx23 (p : Fin 2097152) (j : Fin 64) (k : Fin 64) : ReadP.ridx_main_v23 (ix2 p j) k = ix2 k j :=
  funext fun a => Fin.ext (by match a with | ⟨0, _⟩ => rfl | ⟨1, _⟩ => rfl)
theorem bidx25 (p : Fin 2097152) (j : Fin 64) : ReadP.idx_main_v24 (ReadP.idx_main_v25 (ix2 p j)) = ix1 j :=
  funext fun a => Fin.ext (by match a with | ⟨0, _⟩ => rfl)

/-- The third rectified layer at (p, j), from the second layer's row p. -/
theorem layer3 (x0 : Spec.Mat 2097152 4) (x2 : Spec.Mat 4 64) (x3 : Spec.Row 64) (x4 : Spec.Mat 64 64) (x5 : Spec.Row 64)
    (x6 : Spec.Mat 64 64) (x7 : Spec.Row 64) (p : Fin 2097152) (j : Fin 64) :
    ReadP.val_main_v27 (F := Ideal) x0 x2 x3 x4 x5 x6 x7 (ix2 p j)
      = Spec.relu (Spec.dense x6 x7 (fun k => ReadP.val_main_v22 (F := Ideal) x0 x2 x3 x4 x5 (ix2 p k)) j) := by
  rw [ReadP.val_main_v27_apply, ReadP.val_main_v26_apply, ReadP.val_main_v23_apply, ReadP.val_main_v25_apply, ReadP.val_main_v24_apply,
    ReadP.val_main_call2_v0_apply, ReadP.val_main_call2_cst_apply, bidx25]
  simp only [lidx23, ridx23]
  rw [Ideal.maximumf_def, Ideal.addf_def]
  unfold Spec.relu Spec.dense
  exact congrArg _ Ideal.ofBits_zero_f32

theorem lidx28 (p : Fin 2097152) (j : Fin 3) (k : Fin 64) : ReadP.lidx_main_v28 (ix2 p j) k = ix2 p k :=
  funext fun a => Fin.ext (by match a with | ⟨0, _⟩ => rfl | ⟨1, _⟩ => rfl)
theorem ridx28 (p : Fin 2097152) (j : Fin 3) (k : Fin 64) : ReadP.ridx_main_v28 (ix2 p j) k = ix2 k j :=
  funext fun a => Fin.ext (by match a with | ⟨0, _⟩ => rfl | ⟨1, _⟩ => rfl)
theorem bidx30 (p : Fin 2097152) (j : Fin 3) : ReadP.idx_main_v29 (ReadP.idx_main_v30 (ix2 p j)) = ix1 j :=
  funext fun a => Fin.ext (by match a with | ⟨0, _⟩ => rfl)

/-- The last layer at (p, j), from the third layer's row p. -/
theorem layer4 (x0 : Spec.Mat 2097152 4) (x2 : Spec.Mat 4 64) (x3 : Spec.Row 64) (x4 : Spec.Mat 64 64) (x5 : Spec.Row 64)
    (x6 : Spec.Mat 64 64) (x7 : Spec.Row 64) (x8 : Spec.Mat 64 3) (x9 : Spec.Row 3) (p : Fin 2097152) (j : Fin 3) :
    ReadP.val_main_v31 (F := Ideal) x0 x2 x3 x4 x5 x6 x7 x8 x9 (ix2 p j)
      = Spec.dense x8 x9 (fun k => ReadP.val_main_v27 (F := Ideal) x0 x2 x3 x4 x5 x6 x7 (ix2 p k)) j := by
  rw [ReadP.val_main_v31_apply, ReadP.val_main_v28_apply, ReadP.val_main_v30_apply, ReadP.val_main_v29_apply, bidx30]
  simp only [lidx28, ridx28]
  rw [Ideal.addf_def]
  rfl

/-- The four layers at (p, j) are the perceptron of point p at j. -/
theorem mlp_apply (x0 : Spec.Mat 2097152 4) (x2 : Spec.Mat 4 64) (x3 : Spec.Row 64) (x4 : Spec.Mat 64 64) (x5 : Spec.Row 64)
    (x6 : Spec.Mat 64 64) (x7 : Spec.Row 64) (x8 : Spec.Mat 64 3) (x9 : Spec.Row 3) (p : Fin 2097152) (j : Fin 3) :
    ReadP.val_main_v31 (F := Ideal) x0 x2 x3 x4 x5 x6 x7 x8 x9 (ix2 p j)
      = Spec.mlp x2 x3 x4 x5 x6 x7 x8 x9 (fun k => x0 (ix2 p k)) j := by
  rw [layer4]
  simp only [layer3, layer2, layer1]
  rfl

/-- The reference's last stage is the specification's result. -/
theorem ref_eq_result (x0 : Spec.Mat 2097152 4) (x1 : Spec.Mat 2 3) (x2 : Spec.Mat 4 64) (x3 : Spec.Row 64) (x4 : Spec.Mat 64 64) (x5 : Spec.Row 64)
    (x6 : Spec.Mat 64 64) (x7 : Spec.Row 64) (x8 : Spec.Mat 64 3) (x9 : Spec.Row 3) :
    ReadP.val_main_v34 (F := Ideal) x0 x1 x2 x3 x4 x5 x6 x7 x8 x9 = Spec.result x0 x1 x2 x3 x4 x5 x6 x7 x8 x9 := by
  funext i
  obtain ⟨p, j, rfl⟩ : ∃ p j, i = ix2 p j := ⟨i 0, i 1, eq_ix2 i⟩
  rw [ReadP.val_main_v34_apply]
  unfold Spec.result
  dsimp only
  by_cases h : Spec.inside x1 (fun k => x0 (ix2 (ix2 p j 0) k))
  · rw [if_pos h]
    have hc : ¬ ReadP.val_main_call3_v0 (F := Ideal) x0 x1 (ix2 p j) = 1#1 := fun e => (cond_iff x0 x1 p j).1 e h
    rw [eq_zero_of_ne_one hc, select_zero, mlp_apply]
  · rw [if_neg h]
    rw [(cond_iff x0 x1 p j).2 h, select_one, ReadP.val_main_v33_apply, ReadP.val_main_cst_apply]
    exact Ideal.ofBits_zero_f32

end Cert.ReferenceIdeal.RefValue

end
-- ==== Proof.Args.lean ====
/-
  The ten argument arrays of the kernel program, named at the types the specification is written over.
-/
import proofs.«117370_g24309514896056_cont_sun_c4_343_38_alg».proof.Proof.Gen.KernelIdeal.Frame
import proofs.«117370_g24309514896056_cont_sun_c4_343_38_alg».proof.Proof.Spec

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

/-- The points, four coordinates each. -/
abbrev xt : Spec.Mat 2097152 4 := m ((c : Thread nD τ).loc main_arg0)
/-- The box: row 0 the lower corner, row 1 the upper corner. -/
abbrev bounds : Spec.Mat 2 3 := m ((c : Thread nD τ).loc main_arg1)
abbrev W1 : Spec.Mat 4 64 := m ((c : Thread nD τ).loc main_arg2)
abbrev b1 : Spec.Row 64 := m ((c : Thread nD τ).loc main_arg3)
abbrev W2 : Spec.Mat 64 64 := m ((c : Thread nD τ).loc main_arg4)
abbrev b2 : Spec.Row 64 := m ((c : Thread nD τ).loc main_arg5)
abbrev W3 : Spec.Mat 64 64 := m ((c : Thread nD τ).loc main_arg6)
abbrev b3 : Spec.Row 64 := m ((c : Thread nD τ).loc main_arg7)
abbrev W4 : Spec.Mat 64 3 := m ((c : Thread nD τ).loc main_arg8)
abbrev b4 : Spec.Row 3 := m ((c : Thread nD τ).loc main_arg9)

end Cert.KernelIdeal.Args

/-! The twelve operands of the kernel call, as the host lines before it leave them, named at their literal types. -/
namespace Cert.KernelIdeal.Ops

open Cert.KernelIdeal Cert.KernelIdeal.Gen Idealize.ShloMosaic Idealize.ShloMosaic.TcCoe Idealize.SL.Sem

variable (m : (ℓ : Loc nD τ sig) → Buf (Elt Ideal) ℓ) (c : Dev nD)

/-- The points seen as rows of 32 points. -/
abbrev x32 : S65536x128.Idx → EReal := V m c main_v66
abbrev w1t : S256x16.Idx → EReal := V m c main_v8
abbrev b1c : S256x1.Idx → EReal := V m c main_v21
abbrev w2t : S256x256.Idx → EReal := V m c main_v11
abbrev b2c : S256x1.Idx → EReal := V m c main_v25
abbrev w3t : S256x256.Idx → EReal := V m c main_v14
abbrev b3c : S256x1.Idx → EReal := V m c main_v29
abbrev w4t : S12x256.Idx → EReal := V m c main_v17
abbrev b4c : S12x1.Idx → EReal := V m c main_v33
/-- The column of lower bounds. -/
abbrev lo : S128x1.Idx → EReal := V m c main_v42
/-- The column of upper bounds. -/
abbrev hi : S128x1.Idx → EReal := V m c main_v50
/-- The 0/1 matrix that counts a point's in-box coordinates. -/
abbrev cnt : S96x128.Idx → EReal := V m c main_v65

end Cert.KernelIdeal.Ops

end
-- ==== Proof.Alg.lean ====
/-
  Sums the proof meets, stated over the extended reals with no program in sight.

  A plain matrix product into a zero accumulator, read at (r, c), is the sum over the contraction index of the products
  of the left operand's row r and the right operand's column c.

  A sum over P blocks of n positions whose weights vanish off block p (the weights of a Kronecker product with the
  identity) is the sum over block p alone; only `0 · x = 0` and `1 · x = x` are used, which hold for every extended
  real, so no finiteness is needed.  Hence a layer packed four points to a column computes, on each point's block,
  the specification's dense layer.
-/
import Idealize.ShloMosaic.PureOps.Ideal.Laws
import Idealize.ShloMosaic.Lib.ValueIdx
import proofs.«117370_g24309514896056_cont_sun_c4_343_38_alg».proof.Proof.Spec

noncomputable section

namespace Cert.Alg

open Idealize.ShloMosaic Idealize.ShloMosaic.ValueIdx

theorem plain_contr_rank (M K N : Nat) : (DotDims.plain M K N).contr.rank = 1 := rfl

theorem plain_lhs0 {M K N : Nat} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

theorem plain_lhs1 {M K N : Nat} (j : (⟨2, ![M, N]⟩ : Shape).Idx) (q : (DotDims.plain M K N).contr.Idx) :
    ((DotDims.plain M K N).lhsIdx j q 1).val = (q ⟨0, by rw [plain_contr_rank]; exact Nat.one_pos⟩).val :=
  (DotDims.plain M K N).lhsIdx_val_of_single rfl j q

theorem plain_rhs0 {M K N : Nat} (j : (⟨2, ![M, N]⟩ : Shape).Idx) (q : (DotDims.plain M K N).contr.Idx) :
    ((DotDims.plain M K N).rhsIdx j q 0).val = (q ⟨0, by rw [plain_contr_rank]; exact Nat.one_pos⟩).val :=
  (DotDims.plain M K N).rhsIdx_val_of_single rfl j q

theorem plain_rhs1 {M K N : Nat} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- A plain product into zero, at an entry: the row of the left operand against the column of the right. -/
theorem plain_matmul_zero_apply {M K N : Nat} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs0 _ _
      | ⟨1, _⟩ => exact (plain_lhs1 _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs0 _ _).trans hk
      | ⟨1, _⟩ => exact plain_rhs1 _ _)
  rw [el, er]

/-! ## Block-diagonal sums -/

theorem blk_lt {P n : Nat} (p : Fin P) (k : Fin n) : n * p.val + k.val < P * n :=
  calc n * p.val + k.val < n * p.val + n := Nat.add_lt_add_left k.isLt _
    _ = n * (p.val + 1) := (Nat.mul_succ n p.val).symm
    _ ≤ n * P := Nat.mul_le_mul_left _ (Nat.succ_le_of_lt p.isLt)
    _ = P * n := Nat.mul_comm _ _

theorem blk_div {n : Nat} (hn : 0 < n) (p : Nat) (k : Fin n) : (n * p + k.val) / n = p := by
  rw [Nat.add_comm, Nat.add_mul_div_left _ _ hn, Nat.div_eq_of_lt k.isLt, Nat.zero_add]

theorem blk_mod {n : Nat} (p : Nat) (k : Fin n) : (n * p + k.val) % n = k.val := by
  rw [Nat.add_comm, Nat.add_mul_mod_self_left, Nat.mod_eq_of_lt k.isLt]

/-- A sum over `P` blocks of `n` positions whose weight is the identity's entry (block of κ, p) times a function of the
    position inside the block: only block `p` contributes. -/
theorem sum_blockdiag {P n N : Nat} (hN : N = P * n) (hn : 0 < n) (p : Fin P) (f : Fin n → EReal) (g : Fin N → EReal) :
    ∑ κ : Fin N, (Spec.delta (κ.val / n) p.val * f ⟨κ.val % n, Nat.mod_lt _ hn⟩) * g κ
      = ∑ k : Fin n, f k * g ⟨n * p.val + k.val, hN ▸ blk_lt p k⟩ := by
  subst hN
  rw [← finProdFinEquiv.sum_comp, Fintype.sum_prod_type]
  have hval : ∀ (a : Fin P) (k : Fin n), (finProdFinEquiv (a, k)).val = n * a.val + k.val := fun a k => by
    show k.val + n * a.val = _
    exact Nat.add_comm _ _
  rw [Finset.sum_eq_single p]
  · refine Finset.sum_congr rfl fun k _ => ?_
    have hf : (⟨(finProdFinEquiv (p, k)).val % n, Nat.mod_lt _ hn⟩ : Fin n) = k := Fin.ext (by
      show (finProdFinEquiv (p, k)).val % n = k.val
      rw [hval, blk_mod])
    have hg : finProdFinEquiv (p, k) = ⟨n * p.val + k.val, blk_lt p k⟩ := Fin.ext (hval p k)
    have hd : (finProdFinEquiv (p, k)).val / n = p.val := by rw [hval, blk_div hn]
    rw [hd, Spec.delta_self, one_mul, hf, hg]
  · intro a _ hne
    refine Finset.sum_eq_zero fun k _ => ?_
    have hd : (finProdFinEquiv (a, k)).val / n = a.val := by rw [hval, blk_div hn]
    rw [hd, Spec.delta_ne (fun h => hne (Fin.ext h)), zero_mul, zero_mul]
  · intro h
    exact absurd (Finset.mem_univ p) h

/-! ## A layer packed P points to a column -/

/-- A layer on a packed column vector `h`: row `r` of the weights against `h`, plus the bias column's entry. -/
def lay {R K : Nat} (w : (⟨2, ![R, K]⟩ : Shape).Idx → EReal) (cb : (⟨2, ![R, 1]⟩ : Shape).Idx → EReal) (h : Fin K → EReal) (r : Fin R) : EReal :=
  (∑ k : Fin K, w (ix2 r k) * h k) + cb (ix2 r 0)

/-- With Kronecker-with-identity weights and a tiled bias, the packed layer at row `b · p + j` is the dense layer of point
    `p`'s block of the input at output coordinate `j`. -/
theorem lay_blockdiag {P a b R K : Nat} (hR : R = P * b) (hK : K = P * a) (ha : 0 < a) (hb : 0 < b)
    (W : Spec.Mat a b) (bias : Spec.Row b)
    (w : (⟨2, ![R, K]⟩ : Shape).Idx → EReal) (cb : (⟨2, ![R, 1]⟩ : Shape).Idx → EReal)
    (hw : ∀ (r : Fin R) (k : Fin K), w (ix2 r k)
      = Spec.delta (k.val / a) (r.val / b) * W (ix2 ⟨k.val % a, Nat.mod_lt _ ha⟩ ⟨r.val % b, Nat.mod_lt _ hb⟩))
    (hc : ∀ r : Fin R, cb (ix2 r 0) = bias (ix1 ⟨r.val % b, Nat.mod_lt _ hb⟩))
    (h : Fin K → EReal) (p : Fin P) (j : Fin b) :
    lay w cb h ⟨b * p.val + j.val, hR ▸ blk_lt p j⟩
      = Spec.dense W bias (fun k => h ⟨a * p.val + k.val, hK ▸ blk_lt p k⟩) j := by
  unfold lay Spec.dense
  have hj : (⟨(b * p.val + j.val) % b, Nat.mod_lt _ hb⟩ : Fin b) = j := Fin.ext (blk_mod p.val j)
  rw [hc]
  dsimp only
  rw [hj]
  refine congrArg (· + bias (ix1 j)) ?_
  have e1 : ∀ k : Fin K, w (ix2 (⟨b * p.val + j.val, hR ▸ blk_lt p j⟩ : Fin R) k) * h k
      = (Spec.delta (k.val / a) p.val * (fun k' : Fin a => W (ix2 k' j)) ⟨k.val % a, Nat.mod_lt _ ha⟩) * h k := fun k => by
    rw [hw]
    dsimp only
    rw [blk_div hb, hj]
  rw [Finset.sum_congr rfl fun k _ => e1 k, sum_blockdiag hK ha p (fun k' : Fin a => W (ix2 k' j)) h]
  exact Finset.sum_congr rfl fun k _ => mul_comm _ _

/-! ## Indicators -/

/-- The 0/1 value of a proposition, as an extended real. -/
def ind (p : Prop) [Decidable p] : EReal := if p then 1 else 0

theorem ind_eq_coe (p : Prop) [Decidable p] : ind p = (((if p then (1 : ℝ) else 0) : ℝ) : EReal) := by
  unfold ind
  split <;> simp

/-- Three indicators add up to three exactly when all three propositions hold. -/
theorem ind_sum3 (A B C : Prop) [Decidable A] [Decidable B] [Decidable C] :
    ind A + ind B + ind C = ((3 : ℝ) : EReal) ↔ A ∧ B ∧ C := by
  rw [ind_eq_coe, ind_eq_coe, ind_eq_coe, ← EReal.coe_add, ← EReal.coe_add, EReal.coe_eq_coe_iff]
  by_cases hA : A <;> by_cases hB : B <;> by_cases hC : C <;> simp [hA, hB, hC] <;> norm_num

/-- A comparison's bit is set exactly when the comparison holds. -/
theorem ofBool_decide_eq_one (p : Prop) [Decidable p] : BitVec.ofBool (decide p) = 1#1 ↔ p := by
  by_cases h : p <;> simp [h]

/-- The conjunction of two bits, widened to a word and read as an integer, is 1 when both are set and 0 otherwise. -/
theorem and_bits_toInt : ∀ b1 b2 : BitVec 1,
    ((IntOp.andi b1 b2).setWidth 32).toInt = if b1 = 1#1 ∧ b2 = 1#1 then (1 : Int) else 0 := by
  decide

end Cert.Alg

end
-- ==== Proof.Body.lean ====
/-
  What one grid point of the kernel computes, restated as one term.

  The block's rows (256 rows of 32 points × 4 coordinates) are transposed so that each of the 256 columns holds one
  row's 128 numbers.  Sixteen consecutive entries of a column are four points' coordinates; eight times over, those sixteen
  entries go through the four packed layers (block-diagonal weights: four copies of each weight matrix), giving twelve
  numbers: four points × three outputs.  The eight results are stacked to 96 entries per column.  Beside it, a 0/1 matrix
  applied to the 0/1 table of "entry within its bounds" counts, for every output entry, how many of its point's first three
  coordinates are within bounds; where the count is three the output is kept, elsewhere it is zero.  The result is transposed back.
-/
import proofs.«117370_g24309514896056_cont_sun_c4_343_38_alg».proof.Proof.Gen.KernelIdeal.Frame
import proofs.«117370_g24309514896056_cont_sun_c4_343_38_alg».proof.Proof.Spec
import proofs.«117370_g24309514896056_cont_sun_c4_343_38_alg».proof.Proof.Alg
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.SL.Sem Idealize.ShloMosaic.ValueIdx

variable {F : FTy → Type} [FloatOps F]

/-- Sixteen entries of every column (rows `o … o + 15` of the transposed block: four points' coordinates) through the four
    packed layers: twelve entries per column (four points × three outputs). -/
def packed (o : Nat) (hs : S128x256.Slices ![o, 0] S16x256) (xT : FVec F S128x256 .f32)
    (w1 : Vec F S256x16 .bf16) (c1 : Vec F S256x1 .f32) (w2 : Vec F S256x256 .bf16) (c2 : Vec F S256x1 .f32)
    (w3 : Vec F S256x256 .bf16) (c3 : Vec F S256x1 .f32) (w4 : Vec F S12x256 .bf16) (c4 : Vec F S12x1 .f32) : FVec F S12x256 .f32 :=
  have x4 : FVec F S16x256 .bf16 := truncf .bf16 (extractStridedSlice S16x256 ![o, 0] xT hs) bitsLt_bf16_f32
  have h1 : FVec F S256x256 .bf16 := truncf .bf16 (maximumf (addf (matmul dot_S256x16_S16x256_S256x256_1_0_0_1_n_n none (shapeCast S256x16 w1 shapeCasts_S256x16_S256x16) x4 (constant S256x256 .f32 0x00000000#32)) (broadcastTo S256x256 (shapeCast S256x1 c1 shapeCasts_S256x1_S256x1) broadcasts_S256x1_S256x256)) (broadcast S256x256 (Scalar.ofBits .f32 0x00000000#32))) bitsLt_bf16_f32
  have h2 : FVec F S256x256 .bf16 := truncf .bf16 (maximumf (addf (matmul dot_S256x256_S256x256_S256x256_1_0_0_1_n_n none (shapeCast S256x256 w2 shapeCasts_S256x256_S256x256) h1 (constant S256x256 .f32 0x00000000#32)) (broadcastTo S256x256 (shapeCast S256x1 c2 shapeCasts_S256x1_S256x1) broadcasts_S256x1_S256x256)) (broadcast S256x256 (Scalar.ofBits .f32 0x00000000#32))) bitsLt_bf16_f32
  have h3 : FVec F S256x256 .bf16 := truncf .bf16 (maximumf (addf (matmul dot_S256x256_S256x256_S256x256_1_0_0_1_n_n none (shapeCast S256x256 w3 shapeCasts_S256x256_S256x256) h2 (constant S256x256 .f32 0x00000000#32)) (broadcastTo S256x256 (shapeCast S256x1 c3 shapeCasts_S256x1_S256x1) broadcasts_S256x1_S256x256)) (broadcast S256x256 (Scalar.ofBits .f32 0x00000000#32))) bitsLt_bf16_f32
  addf (matmul dot_S12x256_S256x256_S12x256_1_0_0_1_n_n none (shapeCast S12x256 w4 shapeCasts_S12x256_S12x256) h3 (constant S12x256 .f32 0x00000000#32)) (broadcastTo S12x256 (shapeCast S12x1 c4 shapeCasts_S12x1_S12x1) broadcasts_S12x1_S12x256)

/-- What one grid point stores, from the blocks it loads: the masked, stacked perceptron outputs, transposed back. -/
def bodyT (x0 : Vec F S256x128 .f32) (x1 : Vec F S256x16 .bf16) (x2 : Vec F S256x1 .f32) (x3 : Vec F S256x256 .bf16) (x4 : Vec F S256x1 .f32)
    (x5 : Vec F S256x256 .bf16) (x6 : Vec F S256x1 .f32) (x7 : Vec F S12x256 .bf16) (x8 : Vec F S12x1 .f32) (x9 : Vec F S128x1 .f32)
    (x10 : Vec F S128x1 .f32) (x11 : Vec F S96x128 .f32) : FVec F S256x96 .f32 :=
  transpose S256x96 [1, 0]
    (select (cmpf .oeq (k0_pay2 x0 x9 x10 x11) (broadcast S96x256 (Scalar.ofBits .f32 0x40400000#32)))
      (concatenate S96x256 0 [⟨S12x256, packed 0 slices_S128x256_o0_0_S16x256 (k0_pay1 x0) x1 x2 x3 x4 x5 x6 x7 x8⟩, ⟨S12x256, packed 16 slices_S128x256_o16_0_S16x256 (k0_pay1 x0) x1 x2 x3 x4 x5 x6 x7 x8⟩, ⟨S12x256, packed 32 slices_S128x256_o32_0_S16x256 (k0_pay1 x0) x1 x2 x3 x4 x5 x6 x7 x8⟩, ⟨S12x256, packed 48 slices_S128x256_o48_0_S16x256 (k0_pay1 x0) x1 x2 x3 x4 x5 x6 x7 x8⟩, ⟨S12x256, packed 64 slices_S128x256_o64_0_S16x256 (k0_pay1 x0) x1 x2 x3 x4 x5 x6 x7 x8⟩, ⟨S12x256, packed 80 slices_S128x256_o80_0_S16x256 (k0_pay1 x0) x1 x2 x3 x4 x5 x6 x7 x8⟩, ⟨S12x256, packed 96 slices_S128x256_o96_0_S16x256 (k0_pay1 x0) x1 x2 x3 x4 x5 x6 x7 x8⟩, ⟨S12x256, packed 112 slices_S128x256_o112_0_S16x256 (k0_pay1 x0) x1 x2 x3 x4 x5 x6 x7 x8⟩]
        concatenates_S12x256_S12x256_S12x256_S12x256_S12x256_S12x256_S12x256_S12x256_S96x256_d0)
      (broadcast S96x256 (Scalar.ofBits .f32 0x00000000#32)))
    transposes_S96x256_p1_0_S256x96

theorem off00 : (![0, 0] : Fin 2 → Nat) = fun _ => 0 := by
  funext a; fin_cases a <;> rfl

/-- The generated term for what a grid point leaves in the output's staging buffer is that value. -/
theorem out_eq (x0 : Vec F S256x128 .f32) (x1 : Vec F S256x16 .bf16) (x2 : Vec F S256x1 .f32) (x3 : Vec F S256x256 .bf16) (x4 : Vec F S256x1 .f32)
    (x5 : Vec F S256x256 .bf16) (x6 : Vec F S256x1 .f32) (x7 : Vec F S12x256 .bf16) (x8 : Vec F S12x1 .f32) (x9 : Vec F S128x1 .f32)
    (x10 : Vec F S128x1 .f32) (x11 : Vec F S96x128 .f32) :
    out0_12 x0 x1 x2 x3 x4 x5 x6 x7 x8 x9 x10 x11 = bodyT x0 x1 x2 x3 x4 x5 x6 x7 x8 x9 x10 x11 := by
  unfold out0_12
  rw [View.canon_unit_zero off00]
  simp only [View.ld_unit_zero (S := S256x128) off00, View.ld_unit_zero (S := S256x16) off00, View.ld_unit_zero (S := S256x1) off00,
    View.ld_unit_zero (S := S256x256) off00, View.ld_unit_zero (S := S12x256) off00, View.ld_unit_zero (S := S12x1) off00,
    View.ld_unit_zero (S := S128x1) off00, View.ld_unit_zero (S := S96x128) off00]
  rfl

/-! ## Reading the block's value at an entry, over the extended reals -/

section AtIdeal

/-- A column broadcast across columns reads the column's entry of the same row. -/
theorem bcol {α : Type} {R C : Nat} (hR : R ≠ 1) (v : (⟨2, ![R, 1]⟩ : Shape).Idx → α)
    (h : (⟨2, ![R, 1]⟩ : Shape).Broadcasts ⟨2, ![R, C]⟩) (r : Fin R) (c : Fin C) :
    broadcastTo ⟨2, ![R, C]⟩ v h (ix2 r c) = v (ix2 r 0) :=
  broadcastTo_apply v h _ _ fun a => by
    match a with
    | ⟨0, _⟩ => show r.val = if R = 1 then 0 else r.val; rw [if_neg hR]
    | ⟨1, _⟩ => show (0 : Nat) = if (1 : Nat) = 1 then 0 else c.val; rw [if_pos rfl]

theorem mm1 (A : FVec Ideal S256x16 .bf16) (B : FVec Ideal S16x256 .bf16) (r : Fin 256) (c : Fin 256) :
    matmul dot_S256x16_S16x256_S256x256_1_0_0_1_n_n none A B (constant S256x256 .f32 0x00000000#32) (ix2 r c)
      = ∑ k : Fin 16, A (ix2 r k) * B (ix2 k c) := Alg.plain_matmul_zero_apply none A B r c

theorem mm2 (A : FVec Ideal S256x256 .bf16) (B : FVec Ideal S256x256 .bf16) (r : Fin 256) (c : Fin 256) :
    matmul dot_S256x256_S256x256_S256x256_1_0_0_1_n_n none A B (constant S256x256 .f32 0x00000000#32) (ix2 r c)
      = ∑ k : Fin 256, A (ix2 r k) * B (ix2 k c) := Alg.plain_matmul_zero_apply none A B r c

theorem mm4 (A : FVec Ideal S12x256 .bf16) (B : FVec Ideal S256x256 .bf16) (r : Fin 12) (c : Fin 256) :
    matmul dot_S12x256_S256x256_S12x256_1_0_0_1_n_n none A B (constant S12x256 .f32 0x00000000#32) (ix2 r c)
      = ∑ k : Fin 256, A (ix2 r k) * B (ix2 k c) := Alg.plain_matmul_zero_apply none A B r c

theorem mmE (A : FVec Ideal S96x128 .f32) (B : FVec Ideal S128x256 .f32) (r : Fin 96) (c : Fin 256) :
    matmul dot_S96x128_S128x256_S96x256_1_0_0_1_n_n none A B (constant S96x256 .f32 0x00000000#32) (ix2 r c)
      = ∑ k : Fin 128, A (ix2 r k) * B (ix2 k c) := Alg.plain_matmul_zero_apply none A B r c

/-- The scalar zero the rectifier compares against is the extended real 0. -/
theorem szero : (Scalar.ofBits .f32 0x00000000#32 : Ideal .f32) = (0 : EReal) := Ideal.ofBits_zero_f32

/-- One rectified packed layer at an entry: the maximum with zero of the packed layer's row against the column below. -/
theorem relu_layer_apply {K : Nat} (d : DotDims ⟨2, ![256, K]⟩ ⟨2, ![K, 256]⟩ S256x256)
    (hd : ∀ (A : FVec Ideal ⟨2, ![256, K]⟩ .bf16) (B : FVec Ideal ⟨2, ![K, 256]⟩ .bf16) (r c : Fin 256),
      matmul d none A B (constant S256x256 .f32 0x00000000#32) (ix2 r c) = ∑ k : Fin K, A (ix2 r k) * B (ix2 k c))
    (w : FVec Ideal ⟨2, ![256, K]⟩ .bf16) (cb : FVec Ideal S256x1 .f32)
    (B : FVec Ideal ⟨2, ![K, 256]⟩ .bf16) (r c : Fin 256) :
    (truncf .bf16 (maximumf (addf (matmul d none w B (constant S256x256 .f32 0x00000000#32))
        (broadcastTo S256x256 cb broadcasts_S256x1_S256x256))
        (broadcast S256x256 (Scalar.ofBits .f32 0x00000000#32))) bitsLt_bf16_f32 : FVec Ideal S256x256 .bf16) (ix2 r c)
      = max (Alg.lay w cb (fun k => B (ix2 k c)) r) 0 := by
  rw [truncf_apply, maximumf_apply, addf_apply, hd, bcol (by decide), broadcast_apply, szero]
  rfl

/-- The packed perceptron at an entry: four nested packed layers over the column's sixteen inputs. -/
theorem packed_apply (o : Nat) (ho : o + 16 ≤ 128) (hs : S128x256.Slices ![o, 0] S16x256) (xT : FVec Ideal S128x256 .f32)
    (w1 : Vec Ideal S256x16 .bf16) (c1 : Vec Ideal S256x1 .f32) (w2 : Vec Ideal S256x256 .bf16) (c2 : Vec Ideal S256x1 .f32)
    (w3 : Vec Ideal S256x256 .bf16) (c3 : Vec Ideal S256x1 .f32) (w4 : Vec Ideal S12x256 .bf16) (c4 : Vec Ideal S12x1 .f32)
    (r : Fin 12) (col : Fin 256) :
    packed o hs xT w1 c1 w2 c2 w3 c3 w4 c4 (ix2 r col)
      = Alg.lay w4 c4 (fun k3 => max (Alg.lay w3 c3 (fun k2 => max (Alg.lay w2 c2 (fun k1 => max (Alg.lay w1 c1
          (fun k0 : Fin 16 => xT (ix2 ⟨o + k0.val, by have := k0.isLt; omega⟩ col)) k1) 0) k2) 0) k3) 0) r := by
  unfold packed
  simp only [shapeCast_self]
  rw [addf_apply, mm4, bcol (by decide)]
  unfold Alg.lay
  refine congrArg (· + c4 (ix2 r 0)) (Finset.sum_congr rfl fun k3 _ => congrArg (w4 (ix2 r k3) * ·) ?_)
  rw [relu_layer_apply _ mm2]
  refine congrArg (max · 0) ?_
  unfold Alg.lay
  refine congrArg (· + c3 (ix2 k3 0)) (Finset.sum_congr rfl fun k2 _ => congrArg (w3 (ix2 k3 k2) * ·) ?_)
  beta_reduce
  rw [relu_layer_apply _ mm2]
  refine congrArg (max · 0) ?_
  unfold Alg.lay
  refine congrArg (· + c2 (ix2 k2 0)) (Finset.sum_congr rfl fun k1 _ => congrArg (w2 (ix2 k2 k1) * ·) ?_)
  beta_reduce
  rw [relu_layer_apply _ mm1]
  refine congrArg (max · 0) ?_
  unfold Alg.lay
  refine congrArg (· + c1 (ix2 k1 0)) (Finset.sum_congr rfl fun k0 _ => congrArg (w1 (ix2 k1 k0) * ·) ?_)
  beta_reduce
  rw [truncf_apply]
  exact slice2_axis0_eq o xT hs k0 col

end AtIdeal

/-! ## The packed perceptron is the specification's, point by point -/

section Values

variable (W1 : Spec.Mat 4 64) (b1 : Spec.Row 64) (W2 : Spec.Mat 64 64) (b2 : Spec.Row 64) (W3 : Spec.Mat 64 64) (b3 : Spec.Row 64)
  (W4 : Spec.Mat 64 3) (b4 : Spec.Row 3) (bounds : Spec.Mat 2 3)

/-- Rows 3 p + j of the packed perceptron's result hold output j of the perceptron of point p's four inputs, once the weight
    operands are the Kronecker products with the identity and the bias operands the tiled biases. -/
theorem packed_mlp (o : Nat) (ho : o + 16 ≤ 128) (hs : S128x256.Slices ![o, 0] S16x256) (xT : FVec Ideal S128x256 .f32)
    (w1 : Vec Ideal S256x16 .bf16) (c1 : Vec Ideal S256x1 .f32) (w2 : Vec Ideal S256x256 .bf16) (c2 : Vec Ideal S256x1 .f32)
    (w3 : Vec Ideal S256x256 .bf16) (c3 : Vec Ideal S256x1 .f32) (w4 : Vec Ideal S12x256 .bf16) (c4 : Vec Ideal S12x1 .f32)
    (hw1 : ∀ (r : Fin 256) (k : Fin 16), w1 (ix2 r k) = Spec.delta (k.val / 4) (r.val / 64) * W1 (ix2 ⟨k.val % 4, Nat.mod_lt _ (by decide)⟩ ⟨r.val % 64, Nat.mod_lt _ (by decide)⟩))
    (hc1 : ∀ r : Fin 256, c1 (ix2 r 0) = b1 (ix1 ⟨r.val % 64, Nat.mod_lt _ (by decide)⟩))
    (hw2 : ∀ (r : Fin 256) (k : Fin 256), w2 (ix2 r k) = Spec.delta (k.val / 64) (r.val / 64) * W2 (ix2 ⟨k.val % 64, Nat.mod_lt _ (by decide)⟩ ⟨r.val % 64, Nat.mod_lt _ (by decide)⟩))
    (hc2 : ∀ r : Fin 256, c2 (ix2 r 0) = b2 (ix1 ⟨r.val % 64, Nat.mod_lt _ (by decide)⟩))
    (hw3 : ∀ (r : Fin 256) (k : Fin 256), w3 (ix2 r k) = Spec.delta (k.val / 64) (r.val / 64) * W3 (ix2 ⟨k.val % 64, Nat.mod_lt _ (by decide)⟩ ⟨r.val % 64, Nat.mod_lt _ (by decide)⟩))
    (hc3 : ∀ r : Fin 256, c3 (ix2 r 0) = b3 (ix1 ⟨r.val % 64, Nat.mod_lt _ (by decide)⟩))
    (hw4 : ∀ (r : Fin 12) (k : Fin 256), w4 (ix2 r k) = Spec.delta (k.val / 64) (r.val / 3) * W4 (ix2 ⟨k.val % 64, Nat.mod_lt _ (by decide)⟩ ⟨r.val % 3, Nat.mod_lt _ (by decide)⟩))
    (hc4 : ∀ r : Fin 12, c4 (ix2 r 0) = b4 (ix1 ⟨r.val % 3, Nat.mod_lt _ (by decide)⟩))
    (p : Fin 4) (j : Fin 3) (col : Fin 256) :
    packed o hs xT w1 c1 w2 c2 w3 c3 w4 c4 (ix2 ⟨3 * p.val + j.val, by have := p.isLt; have := j.isLt; omega⟩ col)
      = Spec.mlp W1 b1 W2 b2 W3 b3 W4 b4 (fun k => xT (ix2 ⟨o + (4 * p.val + k.val), by have := p.isLt; have := k.isLt; omega⟩ col)) j := by
  rw [packed_apply o ho]
  have L4 := Alg.lay_blockdiag (P := 4) (a := 64) (b := 3) (R := 12) (K := 256) rfl rfl (by decide) (by decide) W4 b4 w4 c4 hw4 hc4
  have L3 := Alg.lay_blockdiag (P := 4) (a := 64) (b := 64) (R := 256) (K := 256) rfl rfl (by decide) (by decide) W3 b3 w3 c3 hw3 hc3
  have L2 := Alg.lay_blockdiag (P := 4) (a := 64) (b := 64) (R := 256) (K := 256) rfl rfl (by decide) (by decide) W2 b2 w2 c2 hw2 hc2
  have L1 := Alg.lay_blockdiag (P := 4) (a := 4) (b := 64) (R := 256) (K := 16) rfl rfl (by decide) (by decide) W1 b1 w1 c1 hw1 hc1
  unfold Spec.mlp Spec.relu
  refine (L4 _ p j).trans (congrArg (fun h => Spec.dense W4 b4 h j) (funext fun k3 => ?_))
  refine congrArg (max · 0) ((L3 _ p k3).trans (congrArg (fun h => Spec.dense W3 b3 h k3) (funext fun k2 => ?_)))
  refine congrArg (max · 0) ((L2 _ p k2).trans (congrArg (fun h => Spec.dense W2 b2 h k2) (funext fun k1 => ?_)))
  refine congrArg (max · 0) ((L1 _ p k1).trans (congrArg (fun h => Spec.dense W1 b1 h k1) (funext fun k0 => ?_)))
  rfl

end Values

/-! ## The in-box mask -/

section Mask

theorem cmp_oge (x y : EReal) : Ideal.cmp .oge x y = 1#1 ↔ y ≤ x := Alg.ofBool_decide_eq_one _
theorem cmp_ole (x y : EReal) : Ideal.cmp .ole x y = 1#1 ↔ x ≤ y := Alg.ofBool_decide_eq_one _
theorem cmp_oeq (x y : EReal) : Ideal.cmp .oeq x y = 1#1 ↔ x = y := Alg.ofBool_decide_eq_one _

/-- The scalar the count is compared against is the extended real 3. -/
theorem sthree : (Scalar.ofBits .f32 0x40400000#32 : Ideal .f32) = ((3 : ℝ) : EReal) := by
  show Ideal.ofBits .f32 0x40400000#32 = _
  simp [Ideal.ofBits, Ideal.ieee, -EReal.coe_mul]; norm_num

/-- The transposed block: entry (ci, col) is the block's entry (col, ci). -/
theorem xT_apply (x0 : Vec Ideal S256x128 .f32) (ci : Fin 128) (col : Fin 256) : k0_pay1 x0 (ix2 ci col) = x0 (ix2 col ci) := by
  unfold k0_pay1
  rw [shapeCast_self]
  exact transpose_ix2_apply x0 _ ci col

/-- The 0/1 table of "entry within its row's bounds", at an entry. -/
theorem inb_apply (x0 : Vec Ideal S256x128 .f32) (lo hi : Vec Ideal S128x1 .f32) (ci : Fin 128) (col : Fin 256) :
    (sitofp .f32 (extui 32 (andi (cmpf .oge (k0_pay1 x0) (broadcastTo S128x256 lo broadcasts_S128x1_S128x256))
        (cmpf .ole (k0_pay1 x0) (broadcastTo S128x256 hi broadcasts_S128x1_S128x256))) natLt_1_32) : FVec Ideal S128x256 .f32) (ix2 ci col)
      = Alg.ind (lo (ix2 ci 0) ≤ x0 (ix2 col ci) ∧ x0 (ix2 col ci) ≤ hi (ix2 ci 0)) := by
  show ((((IntOp.andi (Ideal.cmp .oge (k0_pay1 x0 (ix2 ci col)) (broadcastTo S128x256 lo broadcasts_S128x1_S128x256 (ix2 ci col)))
      (Ideal.cmp .ole (k0_pay1 x0 (ix2 ci col)) (broadcastTo S128x256 hi broadcasts_S128x1_S128x256 (ix2 ci col)))).setWidth 32).toInt : ℝ) : EReal) = _
  rw [xT_apply, bcol (by decide), bcol (by decide), Alg.and_bits_toInt]
  simp only [cmp_oge, cmp_ole]
  unfold Alg.ind
  by_cases h : lo (ix2 ci 0) ≤ x0 (ix2 col ci) ∧ x0 (ix2 col ci) ≤ hi (ix2 ci 0)
  · rw [if_pos h, if_pos h]; simp
  · rw [if_neg h, if_neg h]; simp

/-- Which of a point's four coordinates are counted: the first three. -/
def firstThree (k : Fin 4) : EReal := if k.val < 3 then 1 else 0

/-- The count at output row 3 pt + j: how many of point pt's first three coordinates lie within their bounds. -/
theorem count_apply (x0 : Vec Ideal S256x128 .f32) (lo hi : Vec Ideal S128x1 .f32) (e : Vec Ideal S96x128 .f32)
    (he : ∀ (o : Fin 96) (ci : Fin 128), e (ix2 o ci) = if ci.val / 4 = o.val / 3 ∧ ci.val % 4 < 3 then (1 : EReal) else 0)
    (pt : Fin 32) (j : Fin 3) (o : Fin 96) (ho : o.val = 3 * pt.val + j.val) (col : Fin 256) :
    k0_pay2 x0 lo hi e (ix2 o col)
      = (fun ci : Fin 128 => Alg.ind (lo (ix2 ci 0) ≤ x0 (ix2 col ci) ∧ x0 (ix2 col ci) ≤ hi (ix2 ci 0))) ⟨4 * pt.val + 0, by have := pt.isLt; omega⟩
        + (fun ci : Fin 128 => Alg.ind (lo (ix2 ci 0) ≤ x0 (ix2 col ci) ∧ x0 (ix2 col ci) ≤ hi (ix2 ci 0))) ⟨4 * pt.val + 1, by have := pt.isLt; omega⟩
        + (fun ci : Fin 128 => Alg.ind (lo (ix2 ci 0) ≤ x0 (ix2 col ci) ∧ x0 (ix2 col ci) ≤ hi (ix2 ci 0))) ⟨4 * pt.val + 2, by have := pt.isLt; omega⟩ := by
  unfold k0_pay2
  simp only [shapeCast_self]
  rw [mmE]
  have hdiv : o.val / 3 = pt.val := by rw [ho]; exact Alg.blk_div (by decide) pt.val j
  have e1 : ∀ ci : Fin 128, e (ix2 o ci) * (sitofp .f32 (extui 32 (andi (cmpf .oge (k0_pay1 x0) (broadcastTo S128x256 lo broadcasts_S128x1_S128x256))
        (cmpf .ole (k0_pay1 x0) (broadcastTo S128x256 hi broadcasts_S128x1_S128x256))) natLt_1_32) : FVec Ideal S128x256 .f32) (ix2 ci col)
      = (Spec.delta (ci.val / 4) pt.val * firstThree ⟨ci.val % 4, Nat.mod_lt _ (by decide)⟩)
        * (fun ci : Fin 128 => Alg.ind (lo (ix2 ci 0) ≤ x0 (ix2 col ci) ∧ x0 (ix2 col ci) ≤ hi (ix2 ci 0))) ci := fun ci => by
    rw [he, inb_apply, hdiv]
    refine congrArg (· * _) ?_
    unfold Spec.delta firstThree
    by_cases h1 : ci.val / 4 = pt.val <;> by_cases h2 : ci.val % 4 < 3 <;> simp [h1, h2]
  rw [Finset.sum_congr rfl fun ci _ => e1 ci,
    Alg.sum_blockdiag (P := 32) (n := 4) (N := 128) rfl (by decide) pt firstThree _, Fin.sum_univ_four]
  simp [firstThree]

variable (bounds : Spec.Mat 2 3)

/-- The mask bit at output row 3 pt + j is set exactly when point pt lies in the box. -/
theorem mask_apply (x0 : Vec Ideal S256x128 .f32) (lo hi : Vec Ideal S128x1 .f32) (e : Vec Ideal S96x128 .f32)
    (hlo : ∀ (ci : Fin 128) (h : ci.val % 4 < 3), lo (ix2 ci 0) = bounds (ix2 0 ⟨ci.val % 4, h⟩))
    (hhi : ∀ (ci : Fin 128) (h : ci.val % 4 < 3), hi (ix2 ci 0) = bounds (ix2 1 ⟨ci.val % 4, h⟩))
    (he : ∀ (o : Fin 96) (ci : Fin 128), e (ix2 o ci) = if ci.val / 4 = o.val / 3 ∧ ci.val % 4 < 3 then (1 : EReal) else 0)
    (pt : Fin 32) (j : Fin 3) (o : Fin 96) (ho : o.val = 3 * pt.val + j.val) (col : Fin 256) :
    cmpf .oeq (k0_pay2 x0 lo hi e) (broadcast S96x256 (Scalar.ofBits .f32 0x40400000#32)) (ix2 o col) = 1#1
      ↔ Spec.inside bounds (fun k : Fin 4 => x0 (ix2 col ⟨4 * pt.val + k.val, by have := pt.isLt; have := k.isLt; omega⟩)) := by
  show Ideal.cmp .oeq (k0_pay2 x0 lo hi e (ix2 o col)) (Scalar.ofBits (F := Ideal) .f32 0x40400000#32) = 1#1 ↔ _
  rw [cmp_oeq, count_apply x0 lo hi e he pt j o ho col, sthree, Alg.ind_sum3]
  have hm : ∀ k : Fin 3, (4 * pt.val + k.val) % 4 < 3 := fun k => by have := k.isLt; omega
  have lok : ∀ k : Fin 3, lo (ix2 (⟨4 * pt.val + k.val, by have := pt.isLt; have := k.isLt; omega⟩ : Fin 128) 0) = bounds (ix2 0 k) := fun k =>
    (hlo _ (hm k)).trans (congrArg (fun z => bounds (ix2 0 z)) (Fin.ext (by show (4 * pt.val + k.val) % 4 = k.val; have := k.isLt; omega)))
  have hik : ∀ k : Fin 3, hi (ix2 (⟨4 * pt.val + k.val, by have := pt.isLt; have := k.isLt; omega⟩ : Fin 128) 0) = bounds (ix2 1 k) := fun k =>
    (hhi _ (hm k)).trans (congrArg (fun z => bounds (ix2 1 z)) (Fin.ext (by show (4 * pt.val + k.val) % 4 = k.val; have := k.isLt; omega)))
  have l0 := lok 0; have l1 := lok 1; have l2 := lok 2
  have h0 := hik 0; have h1 := hik 1; have h2 := hik 2
  unfold Spec.inside
  constructor
  · rintro ⟨a0, a1, a2⟩ k
    fin_cases k
    · exact ⟨l0 ▸ a0.1, h0 ▸ a0.2⟩
    · exact ⟨l1 ▸ a1.1, h1 ▸ a1.2⟩
    · exact ⟨l2 ▸ a2.1, h2 ▸ a2.2⟩
  · intro a
    exact ⟨⟨l0.symm ▸ (a 0).1, h0.symm ▸ (a 0).2⟩, ⟨l1.symm ▸ (a 1).1, h1.symm ▸ (a 1).2⟩, ⟨l2.symm ▸ (a 2).1, h2.symm ▸ (a 2).2⟩⟩

end Mask

/-! ## The eight stacked results -/

/-- Eight twelve-row pieces stacked: row 12 q + r of the stack is row r of piece q. -/
theorem stack_apply {α : Type} (P0 P1 P2 P3 P4 P5 P6 P7 : S12x256.Idx → α)
    (h : Shape.Concatenates (([⟨S12x256, P0⟩, ⟨S12x256, P1⟩, ⟨S12x256, P2⟩, ⟨S12x256, P3⟩, ⟨S12x256, P4⟩, ⟨S12x256, P5⟩, ⟨S12x256, P6⟩, ⟨S12x256, P7⟩] : List ((s : Shape) × (s.Idx → α))).map (·.1)) S96x256 0)
    (q : Fin 8) (r : Fin 12) (col : Fin 256) :
    concatenate S96x256 0 [⟨S12x256, P0⟩, ⟨S12x256, P1⟩, ⟨S12x256, P2⟩, ⟨S12x256, P3⟩, ⟨S12x256, P4⟩, ⟨S12x256, P5⟩, ⟨S12x256, P6⟩, ⟨S12x256, P7⟩] h
        (ix2 ⟨12 * q.val + r.val, by have := q.isLt; have := r.isLt; omega⟩ col)
      = (![P0, P1, P2, P3, P4, P5, P6, P7] q) (ix2 r col) := by
  fin_cases q
  · exact concatenate_apply_piece (0 : Fin 2) [⟨S12x256, P0⟩, ⟨S12x256, P1⟩, ⟨S12x256, P2⟩, ⟨S12x256, P3⟩, ⟨S12x256, P4⟩, ⟨S12x256, P5⟩, ⟨S12x256, P6⟩, ⟨S12x256, P7⟩] h (ix2 ⟨12 * 0 + r.val, by have := r.isLt; omega⟩ col) 0 (by show (0 : Nat) < 8; omega) S12x256 P0 rfl rfl (12 * 0) rfl (ix2 r col)
      (fun b hb => by match b with | ⟨0, _⟩ => exact absurd rfl hb | ⟨1, _⟩ => rfl) rfl
  · exact concatenate_apply_piece (0 : Fin 2) [⟨S12x256, P0⟩, ⟨S12x256, P1⟩, ⟨S12x256, P2⟩, ⟨S12x256, P3⟩, ⟨S12x256, P4⟩, ⟨S12x256, P5⟩, ⟨S12x256, P6⟩, ⟨S12x256, P7⟩] h (ix2 ⟨12 * 1 + r.val, by have := r.isLt; omega⟩ col) 1 (by show (1 : Nat) < 8; omega) S12x256 P1 rfl rfl (12 * 1) rfl (ix2 r col)
      (fun b hb => by match b with | ⟨0, _⟩ => exact absurd rfl hb | ⟨1, _⟩ => rfl) rfl
  · exact concatenate_apply_piece (0 : Fin 2) [⟨S12x256, P0⟩, ⟨S12x256, P1⟩, ⟨S12x256, P2⟩, ⟨S12x256, P3⟩, ⟨S12x256, P4⟩, ⟨S12x256, P5⟩, ⟨S12x256, P6⟩, ⟨S12x256, P7⟩] h (ix2 ⟨12 * 2 + r.val, by have := r.isLt; omega⟩ col) 2 (by show (2 : Nat) < 8; omega) S12x256 P2 rfl rfl (12 * 2) rfl (ix2 r col)
      (fun b hb => by match b with | ⟨0, _⟩ => exact absurd rfl hb | ⟨1, _⟩ => rfl) rfl
  · exact concatenate_apply_piece (0 : Fin 2) [⟨S12x256, P0⟩, ⟨S12x256, P1⟩, ⟨S12x256, P2⟩, ⟨S12x256, P3⟩, ⟨S12x256, P4⟩, ⟨S12x256, P5⟩, ⟨S12x256, P6⟩, ⟨S12x256, P7⟩] h (ix2 ⟨12 * 3 + r.val, by have := r.isLt; omega⟩ col) 3 (by show (3 : Nat) < 8; omega) S12x256 P3 rfl rfl (12 * 3) rfl (ix2 r col)
      (fun b hb => by match b with | ⟨0, _⟩ => exact absurd rfl hb | ⟨1, _⟩ => rfl) rfl
  · exact concatenate_apply_piece (0 : Fin 2) [⟨S12x256, P0⟩, ⟨S12x256, P1⟩, ⟨S12x256, P2⟩, ⟨S12x256, P3⟩, ⟨S12x256, P4⟩, ⟨S12x256, P5⟩, ⟨S12x256, P6⟩, ⟨S12x256, P7⟩] h (ix2 ⟨12 * 4 + r.val, by have := r.isLt; omega⟩ col) 4 (by show (4 : Nat) < 8; omega) S12x256 P4 rfl rfl (12 * 4) rfl (ix2 r col)
      (fun b hb => by match b with | ⟨0, _⟩ => exact absurd rfl hb | ⟨1, _⟩ => rfl) rfl
  · exact concatenate_apply_piece (0 : Fin 2) [⟨S12x256, P0⟩, ⟨S12x256, P1⟩, ⟨S12x256, P2⟩, ⟨S12x256, P3⟩, ⟨S12x256, P4⟩, ⟨S12x256, P5⟩, ⟨S12x256, P6⟩, ⟨S12x256, P7⟩] h (ix2 ⟨12 * 5 + r.val, by have := r.isLt; omega⟩ col) 5 (by show (5 : Nat) < 8; omega) S12x256 P5 rfl rfl (12 * 5) rfl (ix2 r col)
      (fun b hb => by match b with | ⟨0, _⟩ => exact absurd rfl hb | ⟨1, _⟩ => rfl) rfl
  · exact concatenate_apply_piece (0 : Fin 2) [⟨S12x256, P0⟩, ⟨S12x256, P1⟩, ⟨S12x256, P2⟩, ⟨S12x256, P3⟩, ⟨S12x256, P4⟩, ⟨S12x256, P5⟩, ⟨S12x256, P6⟩, ⟨S12x256, P7⟩] h (ix2 ⟨12 * 6 + r.val, by have := r.isLt; omega⟩ col) 6 (by show (6 : Nat) < 8; omega) S12x256 P6 rfl rfl (12 * 6) rfl (ix2 r col)
      (fun b hb => by match b with | ⟨0, _⟩ => exact absurd rfl hb | ⟨1, _⟩ => rfl) rfl
  · exact concatenate_apply_piece (0 : Fin 2) [⟨S12x256, P0⟩, ⟨S12x256, P1⟩, ⟨S12x256, P2⟩, ⟨S12x256, P3⟩, ⟨S12x256, P4⟩, ⟨S12x256, P5⟩, ⟨S12x256, P6⟩, ⟨S12x256, P7⟩] h (ix2 ⟨12 * 7 + r.val, by have := r.isLt; omega⟩ col) 7 (by show (7 : Nat) < 8; omega) S12x256 P7 rfl rfl (12 * 7) rfl (ix2 r col)
      (fun b hb => by match b with | ⟨0, _⟩ => exact absurd rfl hb | ⟨1, _⟩ => rfl) rfl

/-! ## One grid point's stored block, entry by entry -/

section Block

variable (W1 : Spec.Mat 4 64) (b1 : Spec.Row 64) (W2 : Spec.Mat 64 64) (b2 : Spec.Row 64) (W3 : Spec.Mat 64 64) (b3 : Spec.Row 64)
  (W4 : Spec.Mat 64 3) (b4 : Spec.Row 3) (bounds : Spec.Mat 2 3)

/-- Entry (col, 12 q + 3 p + j) of what a grid point stores: output j of the perceptron of the point whose four coordinates
    are entries 16 q + 4 p … 16 q + 4 p + 3 of the block's row col, when that point lies in the box; zero otherwise. -/
theorem bodyT_apply (x0 : Vec Ideal S256x128 .f32) (x1 : Vec Ideal S256x16 .bf16) (x2 : Vec Ideal S256x1 .f32) (x3 : Vec Ideal S256x256 .bf16)
    (x4 : Vec Ideal S256x1 .f32) (x5 : Vec Ideal S256x256 .bf16) (x6 : Vec Ideal S256x1 .f32) (x7 : Vec Ideal S12x256 .bf16) (x8 : Vec Ideal S12x1 .f32)
    (x9 : Vec Ideal S128x1 .f32) (x10 : Vec Ideal S128x1 .f32) (x11 : Vec Ideal S96x128 .f32)
    (hw1 : ∀ (r : Fin 256) (k : Fin 16), x1 (ix2 r k) = Spec.delta (k.val / 4) (r.val / 64) * W1 (ix2 ⟨k.val % 4, Nat.mod_lt _ (by decide)⟩ ⟨r.val % 64, Nat.mod_lt _ (by decide)⟩))
    (hc1 : ∀ r : Fin 256, x2 (ix2 r 0) = b1 (ix1 ⟨r.val % 64, Nat.mod_lt _ (by decide)⟩))
    (hw2 : ∀ (r : Fin 256) (k : Fin 256), x3 (ix2 r k) = Spec.delta (k.val / 64) (r.val / 64) * W2 (ix2 ⟨k.val % 64, Nat.mod_lt _ (by decide)⟩ ⟨r.val % 64, Nat.mod_lt _ (by decide)⟩))
    (hc2 : ∀ r : Fin 256, x4 (ix2 r 0) = b2 (ix1 ⟨r.val % 64, Nat.mod_lt _ (by decide)⟩))
    (hw3 : ∀ (r : Fin 256) (k : Fin 256), x5 (ix2 r k) = Spec.delta (k.val / 64) (r.val / 64) * W3 (ix2 ⟨k.val % 64, Nat.mod_lt _ (by decide)⟩ ⟨r.val % 64, Nat.mod_lt _ (by decide)⟩))
    (hc3 : ∀ r : Fin 256, x6 (ix2 r 0) = b3 (ix1 ⟨r.val % 64, Nat.mod_lt _ (by decide)⟩))
    (hw4 : ∀ (r : Fin 12) (k : Fin 256), x7 (ix2 r k) = Spec.delta (k.val / 64) (r.val / 3) * W4 (ix2 ⟨k.val % 64, Nat.mod_lt _ (by decide)⟩ ⟨r.val % 3, Nat.mod_lt _ (by decide)⟩))
    (hc4 : ∀ r : Fin 12, x8 (ix2 r 0) = b4 (ix1 ⟨r.val % 3, Nat.mod_lt _ (by decide)⟩))
    (hlo : ∀ (ci : Fin 128) (h : ci.val % 4 < 3), x9 (ix2 ci 0) = bounds (ix2 0 ⟨ci.val % 4, h⟩))
    (hhi : ∀ (ci : Fin 128) (h : ci.val % 4 < 3), x10 (ix2 ci 0) = bounds (ix2 1 ⟨ci.val % 4, h⟩))
    (he : ∀ (o : Fin 96) (ci : Fin 128), x11 (ix2 o ci) = if ci.val / 4 = o.val / 3 ∧ ci.val % 4 < 3 then (1 : EReal) else 0)
    (q : Fin 8) (p : Fin 4) (j : Fin 3) (col : Fin 256) :
    bodyT x0 x1 x2 x3 x4 x5 x6 x7 x8 x9 x10 x11 (ix2 col ⟨12 * q.val + (3 * p.val + j.val), by have := q.isLt; have := p.isLt; have := j.isLt; omega⟩)
      = @ite EReal (Spec.inside bounds (fun k : Fin 4 => x0 (ix2 col ⟨16 * q.val + (4 * p.val + k.val), by have := q.isLt; have := p.isLt; have := k.isLt; omega⟩))) (Classical.propDecidable _)
          (Spec.mlp W1 b1 W2 b2 W3 b3 W4 b4 (fun k : Fin 4 => x0 (ix2 col ⟨16 * q.val + (4 * p.val + k.val), by have := q.isLt; have := p.isLt; have := k.isLt; omega⟩)) j) 0 := by
  unfold bodyT
  rw [transpose_ix2_apply, select_apply]
  have hpt : 4 * q.val + p.val < 32 := by have := q.isLt; have := p.isLt; omega
  have hx : (fun k : Fin 4 => x0 (ix2 col ⟨4 * (⟨4 * q.val + p.val, hpt⟩ : Fin 32).val + k.val, by have := k.isLt; show 4 * (4 * q.val + p.val) + k.val < 128; omega⟩))
      = (fun k : Fin 4 => x0 (ix2 col ⟨16 * q.val + (4 * p.val + k.val), by have := q.isLt; have := p.isLt; have := k.isLt; omega⟩)) :=
    funext fun k => congrArg (fun z => x0 (ix2 col z)) (Fin.ext (by show 4 * (4 * q.val + p.val) + k.val = 16 * q.val + (4 * p.val + k.val); omega))
  have hmask := mask_apply bounds x0 x9 x10 x11 hlo hhi he ⟨4 * q.val + p.val, hpt⟩ j
    ⟨12 * q.val + (3 * p.val + j.val), by have := q.isLt; have := p.isLt; have := j.isLt; omega⟩
    (by show 12 * q.val + (3 * p.val + j.val) = 3 * (4 * q.val + p.val) + j.val; omega) col
  rw [hx] at hmask
  by_cases hin : Spec.inside bounds (fun k : Fin 4 => x0 (ix2 col ⟨16 * q.val + (4 * p.val + k.val), by have := q.isLt; have := p.isLt; have := k.isLt; omega⟩))
  · rw [hmask.2 hin, select_one, if_pos hin]
    refine (stack_apply _ _ _ _ _ _ _ _ _ q ⟨3 * p.val + j.val, by have := p.isLt; have := j.isLt; omega⟩ col).trans ?_
    fin_cases q <;>
      exact (packed_mlp W1 b1 W2 b2 W3 b3 W4 b4 _ (by decide) _ (k0_pay1 x0) x1 x2 x3 x4 x5 x6 x7 x8 hw1 hc1 hw2 hc2 hw3 hc3 hw4 hc4 p j col).trans
        (congrArg (fun x => Spec.mlp W1 b1 W2 b2 W3 b3 W4 b4 x j) (funext fun k => xT_apply x0 _ col))
  · rw [eq_zero_of_ne_one (fun hb => hin (hmask.1 hb)), select_zero, if_neg hin, broadcast_apply]
    exact szero

end Block

end Cert.KernelIdeal.Body

end
-- ==== Proof.HostW.lean ====
/-
  The weight operands of the kernel call, as the host lines before it build them, read at an index.

  Each weight operand is the transpose of the Kronecker product of the 4 × 4 identity with a weight matrix: entry (r, k) is
  the identity's entry (k / a, r / b) times the weight's entry (k % a, r % b), where a × b is the weight's shape.

  The identity is two iotas compared; the product is the two factors broadcast to 4 × a × 4 × b, multiplied, and reshaped to
  4a × 4b, so its entry (k, r) sits at row-major position ((k / a · a + k % a) · 4 + r / b) · b + r % b = k · 4b + r of the
  rank-4 array; the change of format after the transpose is the identity over the extended reals.
-/
import proofs.«117370_g24309514896056_cont_sun_c4_343_38_alg».proof.Proof.Gen.KernelIdeal.Frame
import proofs.«117370_g24309514896056_cont_sun_c4_343_38_alg».proof.Proof.Spec
import proofs.«117370_g24309514896056_cont_sun_c4_343_38_alg».proof.Proof.Args
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostW

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (c : Dev nD)

/-! ## The identity matrix -/

/-- The 4 × 4 identity as the host lines build it: the row iota (plus a zero) compared for equality with the column
    iota, and the bit converted to a number. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- On the sixteen pairs of 32-bit words of numbers below 4, the comparison bit is set exactly on the diagonal. -/
theorem eye_word (i j : Fin 4) :
    IntOp.cmpi .eq (IntOp.addi (BitVec.ofNat 32 i.val) 0#32) (BitVec.ofNat 32 j.val) = if i.val = j.val then 1#1 else 0#1 := by
  revert i j; decide +kernel

/-- The identity's entry (i, j) is 1 on the diagonal and 0 off it. -/
theorem eye_apply (i j : Fin 4) : eye (ix2 i j) = Spec.delta i.val j.val := by
  show (((IntOp.cmpi .eq (IntOp.addi (BitVec.ofNat 32 i.val) 0#32) (BitVec.ofNat 32 j.val)).toNat : ℝ) : EReal) = _
  rw [eye_word]
  unfold Spec.delta
  split <;> simp

/-! ## The three Kronecker products -/

/-- The Kronecker product of the identity with a 4 × 64 matrix, as @kron builds it: both factors broadcast to
    4 × 4 × 4 × 64, multiplied, and the four axes merged in pairs. -/
def kron4x64 (W : FVec Ideal S4x64 .f32) : FVec Ideal S16x256 .f32 :=
  shapeCast S16x256 (mulf
    (broadcastInDim S4x4x4x64 ![0, 1, 2, 3] bcast_S4x1x4x1_S4x4x4x64_0_1_2_3 (broadcastInDim S4x1x4x1 ![0, 2] bcast_S4x4_S4x1x4x1_0_2 eye))
    (broadcastInDim S4x4x4x64 ![0, 1, 2, 3] bcast_S1x4x1x64_S4x4x4x64_0_1_2_3 (broadcastInDim S1x4x1x64 ![1, 3] bcast_S4x64_S1x4x1x64_1_3 W)))
    shapeCasts_S4x4x4x64_S16x256

/-- Entry (k, r) of that product: row k is block k / 4, inner row k % 4; column r is block r / 64, inner column r % 64. -/
theorem kron4x64_apply (W : FVec Ideal S4x64 .f32) (k : Fin 16) (r : Fin 256) :
    kron4x64 W (ix2 k r)
      = Spec.delta (k.val / 4) (r.val / 64) * W (ix2 ⟨k.val % 4, Nat.mod_lt _ (by decide)⟩ ⟨r.val % 64, Nat.mod_lt _ (by decide)⟩) := by
  unfold kron4x64
  refine (shapeCast_apply _ _ (ix2 k r)
    (ix4 (⟨k.val / 4, by omega⟩ : Fin 4) (⟨k.val % 4, by omega⟩ : Fin 4) (⟨r.val / 64, by omega⟩ : Fin 4) (⟨r.val % 64, by omega⟩ : Fin 64)) ?_).trans ?_
  · -- the two row-major positions agree
    rw [Shape.rowMajor_val_four, Shape.rowMajor_val_two]
    show ((k.val / 4 * 4 + k.val % 4) * 4 + r.val / 64) * 64 + r.val % 64 = k.val * 256 + r.val
    omega
  · -- each factor's broadcasts read the factor at the block coordinates, resp. the inner coordinates
    rw [mulf_apply]
    rw [broadcastInDim_apply _ bcast_S4x1x4x1_S4x4x4x64_0_1_2_3 _ _ (ix4 (⟨k.val / 4, by omega⟩ : Fin 4) (0 : Fin 1) (⟨r.val / 64, by omega⟩ : Fin 4) (0 : Fin 1))
        (fun a => match a with | ⟨0, _⟩ => rfl | ⟨1, _⟩ => rfl | ⟨2, _⟩ => rfl | ⟨3, _⟩ => rfl),
      broadcastInDim_apply _ bcast_S4x4_S4x1x4x1_0_2 _ _ (ix2 (⟨k.val / 4, by omega⟩ : Fin 4) (⟨r.val / 64, by omega⟩ : Fin 4))
        (fun a => match a with | ⟨0, _⟩ => rfl | ⟨1, _⟩ => rfl),
      broadcastInDim_apply _ bcast_S1x4x1x64_S4x4x4x64_0_1_2_3 _ _ (ix4 (0 : Fin 1) (⟨k.val % 4, by omega⟩ : Fin 4) (0 : Fin 1) (⟨r.val % 64, by omega⟩ : Fin 64))
        (fun a => match a with | ⟨0, _⟩ => rfl | ⟨1, _⟩ => rfl | ⟨2, _⟩ => rfl | ⟨3, _⟩ => rfl),
      broadcastInDim_apply _ bcast_S4x64_S1x4x1x64_1_3 _ _ (ix2 (⟨k.val % 4, by omega⟩ : Fin 4) (⟨r.val % 64, by omega⟩ : Fin 64))
        (fun a => match a with | ⟨0, _⟩ => rfl | ⟨1, _⟩ => rfl),
      eye_apply]

/-- The Kronecker product of the identity with a 64 × 64 matrix, as @kron_0 builds it: both factors broadcast to
    4 × 64 × 4 × 64, multiplied, and the four axes merged in pairs. -/
def kron64x64 (W : FVec Ideal S64x64 .f32) : FVec Ideal S256x256 .f32 :=
  shapeCast S256x256 (mulf
    (broadcastInDim S4x64x4x64 ![0, 1, 2, 3] bcast_S4x1x4x1_S4x64x4x64_0_1_2_3 (broadcastInDim S4x1x4x1 ![0, 2] bcast_S4x4_S4x1x4x1_0_2 eye))
    (broadcastInDim S4x64x4x64 ![0, 1, 2, 3] bcast_S1x64x1x64_S4x64x4x64_0_1_2_3 (broadcastInDim S1x64x1x64 ![1, 3] bcast_S64x64_S1x64x1x64_1_3 W)))
    shapeCasts_S4x64x4x64_S256x256

/-- Entry (k, r) of that product: row k is block k / 64, inner row k % 64; column r is block r / 64, inner column r % 64. -/
theorem kron64x64_apply (W : FVec Ideal S64x64 .f32) (k : Fin 256) (r : Fin 256) :
    kron64x64 W (ix2 k r)
      = Spec.delta (k.val / 64) (r.val / 64) * W (ix2 ⟨k.val % 64, Nat.mod_lt _ (by decide)⟩ ⟨r.val % 64, Nat.mod_lt _ (by decide)⟩) := by
  unfold kron64x64
  refine (shapeCast_apply _ _ (ix2 k r)
    (ix4 (⟨k.val / 64, by omega⟩ : Fin 4) (⟨k.val % 64, by omega⟩ : Fin 64) (⟨r.val / 64, by omega⟩ : Fin 4) (⟨r.val % 64, by omega⟩ : Fin 64)) ?_).trans ?_
  · -- the two row-major positions agree
    rw [Shape.rowMajor_val_four, Shape.rowMajor_val_two]
    show ((k.val / 64 * 64 + k.val % 64) * 4 + r.val / 64) * 64 + r.val % 64 = k.val * 256 + r.val
    omega
  · -- each factor's broadcasts read the factor at the block coordinates, resp. the inner coordinates
    rw [mulf_apply]
    rw [broadcastInDim_apply _ bcast_S4x1x4x1_S4x64x4x64_0_1_2_3 _ _ (ix4 (⟨k.val / 64, by omega⟩ : Fin 4) (0 : Fin 1) (⟨r.val / 64, by omega⟩ : Fin 4) (0 : Fin 1))
        (fun a => match a with | ⟨0, _⟩ => rfl | ⟨1, _⟩ => rfl | ⟨2, _⟩ => rfl | ⟨3, _⟩ => rfl),
      broadcastInDim_apply _ bcast_S4x4_S4x1x4x1_0_2 _ _ (ix2 (⟨k.val / 64, by omega⟩ : Fin 4) (⟨r.val / 64, by omega⟩ : Fin 4))
        (fun a => match a with | ⟨0, _⟩ => rfl | ⟨1, _⟩ => rfl),
      broadcastInDim_apply _ bcast_S1x64x1x64_S4x64x4x64_0_1_2_3 _ _ (ix4 (0 : Fin 1) (⟨k.val % 64, by omega⟩ : Fin 64) (0 : Fin 1) (⟨r.val % 64, by omega⟩ : Fin 64))
        (fun a => match a with | ⟨0, _⟩ => rfl | ⟨1, _⟩ => rfl | ⟨2, _⟩ => rfl | ⟨3, _⟩ => rfl),
      broadcastInDim_apply _ bcast_S64x64_S1x64x1x64_1_3 _ _ (ix2 (⟨k.val % 64, by omega⟩ : Fin 64) (⟨r.val % 64, by omega⟩ : Fin 64))
        (fun a => match a with | ⟨0, _⟩ => rfl | ⟨1, _⟩ => rfl),
      eye_apply]

/-- The Kronecker product of the identity with a 64 × 3 matrix, as @kron_1 builds it: both factors broadcast to
    4 × 64 × 4 × 3, multiplied, and the four axes merged in pairs. -/
def kron64x3 (W : FVec Ideal S64x3 .f32) : FVec Ideal S256x12 .f32 :=
  shapeCast S256x12 (mulf
    (broadcastInDim S4x64x4x3 ![0, 1, 2, 3] bcast_S4x1x4x1_S4x64x4x3_0_1_2_3 (broadcastInDim S4x1x4x1 ![0, 2] bcast_S4x4_S4x1x4x1_0_2 eye))
    (broadcastInDim S4x64x4x3 ![0, 1, 2, 3] bcast_S1x64x1x3_S4x64x4x3_0_1_2_3 (broadcastInDim S1x64x1x3 ![1, 3] bcast_S64x3_S1x64x1x3_1_3 W)))
    shapeCasts_S4x64x4x3_S256x12

/-- Entry (k, r) of that product: row k is block k / 64, inner row k % 64; column r is block r / 3, inner column r % 3. -/
theorem kron64x3_apply (W : FVec Ideal S64x3 .f32) (k : Fin 256) (r : Fin 12) :
    kron64x3 W (ix2 k r)
      = Spec.delta (k.val / 64) (r.val / 3) * W (ix2 ⟨k.val % 64, Nat.mod_lt _ (by decide)⟩ ⟨r.val % 3, Nat.mod_lt _ (by decide)⟩) := by
  unfold kron64x3
  refine (shapeCast_apply _ _ (ix2 k r)
    (ix4 (⟨k.val / 64, by omega⟩ : Fin 4) (⟨k.val % 64, by omega⟩ : Fin 64) (⟨r.val / 3, by omega⟩ : Fin 4) (⟨r.val % 3, by omega⟩ : Fin 3)) ?_).trans ?_
  · -- the two row-major positions agree
    rw [Shape.rowMajor_val_four, Shape.rowMajor_val_two]
    show ((k.val / 64 * 64 + k.val % 64) * 4 + r.val / 3) * 3 + r.val % 3 = k.val * 12 + r.val
    omega
  · -- each factor's broadcasts read the factor at the block coordinates, resp. the inner coordinates
    rw [mulf_apply]
    rw [broadcastInDim_apply _ bcast_S4x1x4x1_S4x64x4x3_0_1_2_3 _ _ (ix4 (⟨k.val / 64, by omega⟩ : Fin 4) (0 : Fin 1) (⟨r.val / 3, by omega⟩ : Fin 4) (0 : Fin 1))
        (fun a => match a with | ⟨0, _⟩ => rfl | ⟨1, _⟩ => rfl | ⟨2, _⟩ => rfl | ⟨3, _⟩ => rfl),
      broadcastInDim_apply _ bcast_S4x4_S4x1x4x1_0_2 _ _ (ix2 (⟨k.val / 64, by omega⟩ : Fin 4) (⟨r.val / 3, by omega⟩ : Fin 4))
        (fun a => match a with | ⟨0, _⟩ => rfl | ⟨1, _⟩ => rfl),
      broadcastInDim_apply _ bcast_S1x64x1x3_S4x64x4x3_0_1_2_3 _ _ (ix4 (0 : Fin 1) (⟨k.val % 64, by omega⟩ : Fin 64) (0 : Fin 1) (⟨r.val % 3, by omega⟩ : Fin 3))
        (fun a => match a with | ⟨0, _⟩ => rfl | ⟨1, _⟩ => rfl | ⟨2, _⟩ => rfl | ⟨3, _⟩ => rfl),
      broadcastInDim_apply _ bcast_S64x3_S1x64x1x3_1_3 _ _ (ix2 (⟨k.val % 64, by omega⟩ : Fin 64) (⟨r.val % 3, by omega⟩ : Fin 3))
        (fun a => match a with | ⟨0, _⟩ => rfl | ⟨1, _⟩ => rfl),
      eye_apply]

/-! ## The four operands: a product, transposed, its format changed (the identity over the extended reals) -/

theorem w1t_eq : Ops.w1t m c = truncf .bf16 (transpose S256x16 [1, 0] (kron4x64 (Args.W1 m c)) transposes_S16x256_S256x16_1_0) bitsLt_bf16_f32 := by
  dsimp only [Ops.w1t, Ops.w2t, Ops.w3t, Ops.w4t, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  rfl

theorem w2t_eq : Ops.w2t m c = truncf .bf16 (transpose S256x256 [1, 0] (kron64x64 (Args.W2 m c)) transposes_S256x256_S256x256_1_0) bitsLt_bf16_f32 := by
  dsimp only [Ops.w1t, Ops.w2t, Ops.w3t, Ops.w4t, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  rfl

theorem w3t_eq : Ops.w3t m c = truncf .bf16 (transpose S256x256 [1, 0] (kron64x64 (Args.W3 m c)) transposes_S256x256_S256x256_1_0) bitsLt_bf16_f32 := by
  dsimp only [Ops.w1t, Ops.w2t, Ops.w3t, Ops.w4t, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  rfl

theorem w4t_eq : Ops.w4t m c = truncf .bf16 (transpose S12x256 [1, 0] (kron64x3 (Args.W4 m c)) transposes_S256x12_S12x256_1_0) bitsLt_bf16_f32 := by
  dsimp only [Ops.w1t, Ops.w2t, Ops.w3t, Ops.w4t, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  rfl

/-- Layer 1's weights as the kernel call finds them. -/
theorem w1t_apply (r : Fin 256) (k : Fin 16) :
    Ops.w1t m c (ix2 r k)
      = Spec.delta (k.val / 4) (r.val / 64) * Args.W1 m c (ix2 ⟨k.val % 4, Nat.mod_lt _ (by decide)⟩ ⟨r.val % 64, Nat.mod_lt _ (by decide)⟩) := by
  rw [w1t_eq, truncf_apply, transpose_ix2_apply, kron4x64_apply]

/-- Layer 2's weights as the kernel call finds them. -/
theorem w2t_apply (r : Fin 256) (k : Fin 256) :
    Ops.w2t m c (ix2 r k)
      = Spec.delta (k.val / 64) (r.val / 64) * Args.W2 m c (ix2 ⟨k.val % 64, Nat.mod_lt _ (by decide)⟩ ⟨r.val % 64, Nat.mod_lt _ (by decide)⟩) := by
  rw [w2t_eq, truncf_apply, transpose_ix2_apply, kron64x64_apply]

/-- Layer 3's weights as the kernel call finds them. -/
theorem w3t_apply (r : Fin 256) (k : Fin 256) :
    Ops.w3t m c (ix2 r k)
      = Spec.delta (k.val / 64) (r.val / 64) * Args.W3 m c (ix2 ⟨k.val % 64, Nat.mod_lt _ (by decide)⟩ ⟨r.val % 64, Nat.mod_lt _ (by decide)⟩) := by
  rw [w3t_eq, truncf_apply, transpose_ix2_apply, kron64x64_apply]

/-- Layer 4's weights as the kernel call finds them. -/
theorem w4t_apply (r : Fin 12) (k : Fin 256) :
    Ops.w4t m c (ix2 r k)
      = Spec.delta (k.val / 64) (r.val / 3) * Args.W4 m c (ix2 ⟨k.val % 64, Nat.mod_lt _ (by decide)⟩ ⟨r.val % 3, Nat.mod_lt _ (by decide)⟩) := by
  rw [w4t_eq, truncf_apply, transpose_ix2_apply, kron64x3_apply]

end Cert.KernelIdeal.HostW

end
-- ==== Proof.HostB.lean ====
/-
  The layout-only operands of the kernel call, as the host lines before it build them, read at an index: the four bias
  columns, the points' array seen as rows of 32 points (128 numbers), and the two columns of box bounds.

  A bias column is the bias tiled four times and stood up as a column: entry (r, 0) is the bias at r % b.  Row R of the
  points' view holds points 32 R … 32 R + 31, coordinate k of point 32 R + q at column 4 q + k.  The bound columns repeat
  (lower corner, a sentinel) and (upper corner, a sentinel) 32 times: entry 4 q + k is the corner's coordinate k for k < 3.
-/
import proofs.«117370_g24309514896056_cont_sun_c4_343_38_alg».proof.Proof.Gen.KernelIdeal.Frame
import proofs.«117370_g24309514896056_cont_sun_c4_343_38_alg».proof.Proof.Spec
import proofs.«117370_g24309514896056_cont_sun_c4_343_38_alg».proof.Proof.Args
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelIdeal.HostB

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (c : Dev nD)

/-! ## The layouts over an abstract operand

Each operand below is a chain of reshapes and broadcasts of one argument array; read at an index, the chain names one
entry of that array.  The chains are read here once, over any array of the operand's shape. -/

/-- A vector of 64 numbers tiled four times and stood up as a column: entry (r, 0) is the vector at r % 64. -/
theorem tile64_apply (x : S64.Idx → EReal) (r : Fin 256) :
    shapeCast S256x1 (shapeCast S256 (broadcastInDim S4x64 ![0, 1] bcast_S1x64_S4x64_0_1 (shapeCast S1x64 x shapeCasts_S64_S1x64)) shapeCasts_S4x64_S256) shapeCasts_S256_S256x1 (ix2 r 0)
      = x (ix1 ⟨r.val % 64, Nat.mod_lt _ (by decide)⟩) := by
  refine (shapeCast_apply _ _ _ (ix1 r) ?_).trans ?_
  · rw [Shape.rowMajor_val_two, Shape.rowMajor_val_one]
    show r.val = r.val * 1 + 0
    omega
  refine (shapeCast_apply _ _ _ (ix2 (⟨r.val / 64, by have := r.isLt; omega⟩ : Fin 4) (⟨r.val % 64, Nat.mod_lt _ (by decide)⟩ : Fin 64)) ?_).trans ?_
  · rw [Shape.rowMajor_val_two, Shape.rowMajor_val_one]
    show r.val / 64 * 64 + r.val % 64 = r.val
    omega
  refine (broadcastInDim_apply _ _ _ _ (ix2 (0 : Fin 1) (⟨r.val % 64, Nat.mod_lt _ (by decide)⟩ : Fin 64)) ?_).trans ?_
  · intro a
    match a with
    | ⟨0, _⟩ => rfl
    | ⟨1, _⟩ => rfl
  exact shapeCast_a_1a_apply _ _ 0 _

/-- A vector of 3 numbers tiled four times and stood up as a column: entry (r, 0) is the vector at r % 3. -/
theorem tile3_apply (x : S3.Idx → EReal) (r : Fin 12) :
    shapeCast S12x1 (shapeCast S12 (broadcastInDim S4x3 ![0, 1] bcast_S1x3_S4x3_0_1 (shapeCast S1x3 x shapeCasts_S3_S1x3)) shapeCasts_S4x3_S12) shapeCasts_S12_S12x1 (ix2 r 0)
      = x (ix1 ⟨r.val % 3, Nat.mod_lt _ (by decide)⟩) := by
  refine (shapeCast_apply _ _ _ (ix1 r) ?_).trans ?_
  · rw [Shape.rowMajor_val_two, Shape.rowMajor_val_one]
    show r.val = r.val * 1 + 0
    omega
  refine (shapeCast_apply _ _ _ (ix2 (⟨r.val / 3, by have := r.isLt; omega⟩ : Fin 4) (⟨r.val % 3, Nat.mod_lt _ (by decide)⟩ : Fin 3)) ?_).trans ?_
  · rw [Shape.rowMajor_val_two, Shape.rowMajor_val_one]
    show r.val / 3 * 3 + r.val % 3 = r.val
    omega
  refine (broadcastInDim_apply _ _ _ _ (ix2 (0 : Fin 1) (⟨r.val % 3, Nat.mod_lt _ (by decide)⟩ : Fin 3)) ?_).trans ?_
  · intro a
    match a with
    | ⟨0, _⟩ => rfl
    | ⟨1, _⟩ => rfl
  exact shapeCast_a_1a_apply _ _ 0 _

/-- Three numbers followed by a sentinel, repeated 32 times and stood up as a column: entry (4 q + k, 0) is number k for k < 3. -/
theorem col4_apply (x₁ : S3.Idx → EReal) (x₂ : S1.Idx → EReal) (ci : Fin 128) (h : ci.val % 4 < 3) :
    shapeCast S128x1 (shapeCast S128 (broadcastInDim S32x4 ![0, 1] bcast_S1x4_S32x4_0_1
        (shapeCast S1x4 (concatenate S4 0 [⟨S3, x₁⟩, ⟨S1, x₂⟩] concatenates_S3_S1_S4_d0) shapeCasts_S4_S1x4)) shapeCasts_S32x4_S128) shapeCasts_S128_S128x1 (ix2 ci 0)
      = x₁ (ix1 ⟨ci.val % 4, h⟩) := by
  refine (shapeCast_apply _ _ _ (ix1 ci) ?_).trans ?_
  · rw [Shape.rowMajor_val_two, Shape.rowMajor_val_one]
    show ci.val = ci.val * 1 + 0
    omega
  refine (shapeCast_apply _ _ _ (ix2 (⟨ci.val / 4, by have := ci.isLt; omega⟩ : Fin 32) (⟨ci.val % 4, Nat.mod_lt _ (by decide)⟩ : Fin 4)) ?_).trans ?_
  · rw [Shape.rowMajor_val_two, Shape.rowMajor_val_one]
    show ci.val / 4 * 4 + ci.val % 4 = ci.val
    omega
  refine (broadcastInDim_apply _ _ _ _ (ix2 (0 : Fin 1) (⟨ci.val % 4, Nat.mod_lt _ (by decide)⟩ : Fin 4)) ?_).trans ?_
  · intro a
    match a with
    | ⟨0, _⟩ => rfl
    | ⟨1, _⟩ => rfl
  refine (shapeCast_a_1a_apply _ _ 0 _).trans ?_
  refine concatenate_pair_apply_left (t := S4) (s₁ := S3) (s₂ := S1) 0 x₁ x₂ concatenates_S3_S1_S4_d0 _ rfl (ix1 ⟨ci.val % 4, h⟩) ?_
  intro b
  match b with
  | ⟨0, _⟩ => rfl

/-- Row 0 of a 2 × 3 array, as a vector of three numbers. -/
theorem row0_apply (x : S2x3.Idx → EReal) (k : Fin 3) :
    shapeCast S3 (extractStridedSlice S1x3 ![0, 0] x slices_S2x3_S1x3_0_0) shapeCasts_S1x3_S3 (ix1 k) = x (ix2 0 k) := by
  refine (shapeCast_1a_a_apply _ _ k).trans ?_
  refine extractStridedSlice_apply _ _ _ _ _ ?_
  intro a
  match a with
  | ⟨0, _⟩ => rfl
  | ⟨1, _⟩ =>
    show k.val = 0 + k.val
    omega

/-- Row 1 of a 2 × 3 array, as a vector of three numbers. -/
theorem row1_apply (x : S2x3.Idx → EReal) (k : Fin 3) :
    shapeCast S3 (extractStridedSlice S1x3 ![1, 0] x slices_S2x3_S1x3_1_0) shapeCasts_S1x3_S3 (ix1 k) = x (ix2 1 k) := by
  refine (shapeCast_1a_a_apply _ _ k).trans ?_
  refine extractStridedSlice_apply _ _ _ _ _ ?_
  intro a
  match a with
  | ⟨0, _⟩ => rfl
  | ⟨1, _⟩ =>
    show k.val = 0 + k.val
    omega

/-! ## The operands of the kernel call

Each operand's array is the composition of the host operations that build it; the lemmas above read it at an index.  In
the bound columns the sentinel stands in the second piece of the concatenation, which an index with `ci % 4 < 3` never
reads. -/

/-- Layer 1's bias column. -/
theorem b1c_apply (r : Fin 256) :
    Ops.b1c m c (ix2 r 0) = Args.b1 m c (ix1 ⟨r.val % 64, Nat.mod_lt _ (by decide)⟩) := by
  dsimp only [Ops.b1c, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  exact tile64_apply _ r

/-- Layer 2's bias column. -/
theorem b2c_apply (r : Fin 256) :
    Ops.b2c m c (ix2 r 0) = Args.b2 m c (ix1 ⟨r.val % 64, Nat.mod_lt _ (by decide)⟩) := by
  dsimp only [Ops.b2c, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  exact tile64_apply _ r

/-- Layer 3's bias column. -/
theorem b3c_apply (r : Fin 256) :
    Ops.b3c m c (ix2 r 0) = Args.b3 m c (ix1 ⟨r.val % 64, Nat.mod_lt _ (by decide)⟩) := by
  dsimp only [Ops.b3c, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  exact tile64_apply _ r

/-- Layer 4's bias column. -/
theorem b4c_apply (r : Fin 12) :
    Ops.b4c m c (ix2 r 0) = Args.b4 m c (ix1 ⟨r.val % 3, Nat.mod_lt _ (by decide)⟩) := by
  dsimp only [Ops.b4c, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  exact tile3_apply _ r

/-- The points' array as rows of 32 points. -/
theorem x32_apply (R : Fin 65536) (cc : Fin 128) :
    Ops.x32 m c (ix2 R cc)
      = Args.xt m c (ix2 ⟨32 * R.val + cc.val / 4, by have := R.isLt; have := cc.isLt; omega⟩ ⟨cc.val % 4, Nat.mod_lt _ (by decide)⟩) := by
  dsimp only [Ops.x32, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  refine shapeCast_apply (s := S2097152x4) (t := S65536x128) _ _ _ _ ?_
  rw [Shape.rowMajor_val_two, Shape.rowMajor_val_two]
  show (32 * R.val + cc.val / 4) * 4 + cc.val % 4 = R.val * 128 + cc.val
  omega

/-- The lower bounds' column: the box's lower corner on a point's first three coordinates. -/
theorem lo_apply (ci : Fin 128) (h : ci.val % 4 < 3) :
    Ops.lo m c (ix2 ci 0) = Args.bounds m c (ix2 0 ⟨ci.val % 4, h⟩) := by
  dsimp only [Ops.lo, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  refine (col4_apply _ _ ci h).trans ?_
  after_results_simp
  exact row0_apply _ _

/-- The upper bounds' column: the box's upper corner on a point's first three coordinates. -/
theorem hi_apply (ci : Fin 128) (h : ci.val % 4 < 3) :
    Ops.hi m c (ix2 ci 0) = Args.bounds m c (ix2 1 ⟨ci.val % 4, h⟩) := by
  dsimp only [Ops.hi, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  refine (col4_apply _ _ ci h).trans ?_
  after_results_simp
  exact row1_apply _ _

end Cert.KernelIdeal.HostB

end
-- ==== Proof.HostE.lean ====
/-
  The 0/1 matrix the kernel call counts in-box coordinates with, as the host lines before it build it from two iotas:
  a one at (o, ci) exactly when column ci belongs to the point o / 3 (ci / 4 = o / 3) and is one of that point's first
  three coordinates (ci % 4 < 3); a zero elsewhere.
-/
import proofs.«117370_g24309514896056_cont_sun_c4_343_38_alg».proof.Proof.Gen.KernelIdeal.Frame
import proofs.«117370_g24309514896056_cont_sun_c4_343_38_alg».proof.Proof.Spec
import proofs.«117370_g24309514896056_cont_sun_c4_343_38_alg».proof.Proof.Args
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelIdeal.HostE

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- The sign of a word: 0 at zero, -1 when the top bit is set, 1 otherwise. -/
def signW (x : BitVec 32) : BitVec 32 := if x = 0 then 0 else if x.msb then -1 else 1

/-- Floor division of words as the program builds it from the division that rounds toward zero: the quotient, less one
    when the operands' signs differ and the remainder is not zero. -/
def floorDivW (x d : BitVec 32) : BitVec 32 :=
  Scalar.select (IntOp.andi (IntOp.cmpi .ne (signW x) (signW d)) (IntOp.cmpi .ne (IntOp.remsi .host x d) 0#32))
    (IntOp.subi (IntOp.divsi .host x d) 1#32) (IntOp.divsi .host x d)

/-- The divisor a remainder is taken by: one in place of zero. -/
def safeW (d : BitVec 32) : BitVec 32 := Scalar.select (IntOp.cmpi .eq d 0#32) 1#32 d

/-- The remainder of the divisor's sign as the program builds it from the remainder of the dividend's sign: the divisor
    is added when that remainder is not zero and its sign differs from the divisor's. -/
def remW (x d : BitVec 32) : BitVec 32 :=
  Scalar.select
    (IntOp.andi (IntOp.cmpi .ne (IntOp.cmpi .slt (IntOp.remsi .host x (safeW d)) 0#32) (IntOp.cmpi .slt (safeW d) 0#32))
      (IntOp.cmpi .ne (IntOp.remsi .host x (safeW d)) 0#32))
    (IntOp.addi (IntOp.remsi .host x (safeW d)) (safeW d)) (IntOp.remsi .host x (safeW d))

/-- The same floor division over a whole array of words, the divisor a scalar array broadcast to the array's shape. -/
def floorDivV {s : Shape} (hb : S_.BroadcastsInDim s (![] : Fin 0 → Fin s.rank)) (X : IVec s 32) (D : IVec S_ 32) : IVec s 32 :=
  select
    (andi (cmpi .ne (signi X) (broadcastInDim s ![] hb (signi D)))
      (cmpi .ne (Host.remsi X (broadcastInDim s ![] hb D)) (broadcastInDim s ![] hb (constantI S_ 32 0#32))))
    (subi (Host.divsi X (broadcastInDim s ![] hb D)) (broadcastInDim s ![] hb (constantI S_ 32 1#32)))
    (Host.divsi X (broadcastInDim s ![] hb D))

/-- The scalar array of the divisor a remainder is taken by. -/
def safeV (D : IVec S_ 32) : IVec S_ 32 := select (cmpi .eq D (constantI S_ 32 0#32)) (constantI S_ 32 1#32) D

/-- The same remainder over a whole array of words. -/
def remV {s : Shape} (hb : S_.BroadcastsInDim s (![] : Fin 0 → Fin s.rank)) (X : IVec s 32) (D : IVec S_ 32) : IVec s 32 :=
  select
    (andi
      (cmpi .ne (cmpi .slt (Host.remsi X (broadcastInDim s ![] hb (safeV D))) (broadcastInDim s ![] hb (constantI S_ 32 0#32)))
        (broadcastInDim s ![] hb (cmpi .slt (safeV D) (constantI S_ 32 0#32))))
      (cmpi .ne (Host.remsi X (broadcastInDim s ![] hb (safeV D))) (broadcastInDim s ![] hb (constantI S_ 32 0#32))))
    (addi (Host.remsi X (broadcastInDim s ![] hb (safeV D))) (broadcastInDim s ![] hb (safeV D)))
    (Host.remsi X (broadcastInDim s ![] hb (safeV D)))

/-- The column numbers 0 … 127 as a row, and the row numbers 0 … 95 as a column. -/
def colNo : IVec S1x128 32 := broadcastInDim S1x128 ![1] bcast_S128_S1x128_1 (iotaInDim S128 32 0)
def rowNo : IVec S96x1 32 := broadcastInDim S96x1 ![0] bcast_S96_S96x1_0 (iotaInDim S96 32 0)

/-- The matrix of one-bit words the counting matrix converts. -/
def cntBits : IVec S96x128 1 :=
  andi
    (cmpi .eq (broadcastInDim S96x128 ![0, 1] bcast_S1x128_S96x128_0_1 (floorDivV bcast_S_S1x128 colNo (constantI S_ 32 4#32)))
      (broadcastInDim S96x128 ![0, 1] bcast_S96x1_S96x128_0_1 (floorDivV bcast_S_S96x1 rowNo (constantI S_ 32 3#32))))
    (broadcastInDim S96x128 ![0, 1] bcast_S1x128_S96x128_0_1
      (cmpi .slt (remV bcast_S_S1x128 colNo (constantI S_ 32 4#32)) (broadcastInDim S1x128 ![] bcast_S_S1x128 (constantI S_ 32 3#32))))

open Idealize.ShloMosaic.StableHlo in
/-- The counting matrix is the conversion of the matrix of one-bit words: the host lines before the kernel call, composed. -/
theorem cnt_eq : Ops.cnt m c = uitofp (F := Ideal) .f32 cntBits := by
  dsimp only [Ops.cnt, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  rfl

/-- Every operation on the way is elementwise or a broadcast, so the one-bit word at (o, ci) is the words' operations on the
    column number ci and the row number o. -/
theorem cntBits_apply (o : Fin 96) (ci : Fin 128) : cntBits (ix2 o ci) =
    IntOp.andi (IntOp.cmpi .eq (floorDivW (BitVec.ofNat 32 ci.val) 4#32) (floorDivW (BitVec.ofNat 32 o.val) 3#32))
      (IntOp.cmpi .slt (remW (BitVec.ofNat 32 ci.val) 4#32) 3#32) := rfl

/-- The three tables: on the column numbers below 128 the built floor division by 4 and remainder by 4 are the natural
    numbers' quotient and remainder, and on the row numbers below 96 the built floor division by 3 is the quotient. -/
theorem floorDivW_col : ∀ ci : Fin 128, floorDivW (BitVec.ofNat 32 ci.val) 4#32 = BitVec.ofNat 32 (ci.val / 4) := by decide +kernel
theorem remW_col : ∀ ci : Fin 128, remW (BitVec.ofNat 32 ci.val) 4#32 = BitVec.ofNat 32 (ci.val % 4) := by decide +kernel
theorem floorDivW_row : ∀ o : Fin 96, floorDivW (BitVec.ofNat 32 o.val) 3#32 = BitVec.ofNat 32 (o.val / 3) := by decide +kernel

/-- Two block numbers below 32 compared for equality, a remainder below 4 compared against 3, and the conjunction, as a
    one-bit word. -/
theorem bit_word : ∀ (a b : Fin 32) (r : Fin 4),
    IntOp.andi (IntOp.cmpi .eq (BitVec.ofNat 32 a.val) (BitVec.ofNat 32 b.val)) (IntOp.cmpi .slt (BitVec.ofNat 32 r.val) 3#32) =
      if a.val = b.val ∧ r.val < 3 then 1#1 else 0#1 := by decide +kernel

/-- The counting matrix. -/
theorem e_apply (o : Fin 96) (ci : Fin 128) :
    Ops.cnt m c (ix2 o ci) = if ci.val / 4 = o.val / 3 ∧ ci.val % 4 < 3 then (1 : EReal) else 0 := by
  rw [cnt_eq]
  show (((cntBits (ix2 o ci)).toNat : ℝ) : EReal) = _
  rw [cntBits_apply, floorDivW_col, floorDivW_row, remW_col]
  have h := bit_word ⟨ci.val / 4, by omega⟩ ⟨o.val / 3, by omega⟩ ⟨ci.val % 4, by omega⟩
  simp only at h
  rw [h]
  split_ifs <;> simp

end Cert.KernelIdeal.HostE

end
-- ==== Proof.Arr.lean ====
/-
  From grid points to the whole result.

  Grid point t loads rows 256 t … 256 t + 255 of the points' array seen as rows of 32 points, and the eleven other operands
  whole; it stores rows 256 t … 256 t + 255 of a 65536 × 96 array whose row R holds the three outputs of each of the points
  32 R … 32 R + 31.  The 256 points' blocks tile that array, so after the run it is one function of the arguments; the
  host's last line re-reads the same numbers, row-major, as 2097152 rows of three: the specification's result.
-/
import proofs.«117370_g24309514896056_cont_sun_c4_343_38_alg».proof.Proof.Gen.KernelIdeal.Frame
import proofs.«117370_g24309514896056_cont_sun_c4_343_38_alg».proof.Proof.Spec
import proofs.«117370_g24309514896056_cont_sun_c4_343_38_alg».proof.Proof.Args
import proofs.«117370_g24309514896056_cont_sun_c4_343_38_alg».proof.Proof.Alg
import proofs.«117370_g24309514896056_cont_sun_c4_343_38_alg».proof.Proof.Body
import proofs.«117370_g24309514896056_cont_sun_c4_343_38_alg».proof.Proof.HostW
import proofs.«117370_g24309514896056_cont_sun_c4_343_38_alg».proof.Proof.HostB
import proofs.«117370_g24309514896056_cont_sun_c4_343_38_alg».proof.Proof.HostE
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo

variable (m : (ℓ : Loc nD τ sig) → Buf (Elt Ideal) ℓ) (ρ : Dev nD → PrngReg)

/-! ## Where each window's block sits -/

/-- The printed index maps, decided over the 256 grid points: the points' view and the result move one block of 256 rows per
    point; every other operand is one block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = t.val
    ∧ win0_12.index t (1 : Fin 2) = 0 :=
  (by decide +kernel : ∀ t : Fin grid0.N, _)

theorem t_lt (t : Fin cfg0.N) : t.val < 256 := Nat.lt_of_lt_of_eq t.isLt N_0

/-- The points' block at grid point t: rows 256 t … 256 t + 255 of the points seen as rows of 32. -/
abbrev B0 (c : Dev nD) (t : Fin cfg0.N) : Vec Ideal S256x128 .f32 := iblk m c 0 t
theorem B0_apply (c : Dev nD) (t : Fin cfg0.N) (r : Fin 256) (k : Fin 128) :
    B0 m c t (ix2 r k) = Ops.x32 m c (ix2 ⟨256 * t.val + r.val, by have := t_lt t; have := r.isLt; omega⟩ k) := by
  obtain ⟨f0, f1, f2, f3, f4, f5, f6, f7, f8, f9, f10, f11, f12, f13, f14, f15, f16, f17, f18, f19, f20, f21, f22, f23, f24, f25⟩ := idx_facts t
  show V m c main_v66 (((cfg0.win 0).blk t).view.emb (ix2 r k)) = V m c main_v66 (ix2 ⟨256 * t.val + r.val, by have := t_lt t; have := r.isLt; omega⟩ k)
  refine congrArg _ (funext fun a => Fin.ext ?_)
  match a with
  | ⟨0, _⟩ => show win0_0.index t (0 : Fin 2) * 256 + 1 * r.val = 256 * t.val + r.val; rw [f0]; omega
  | ⟨1, _⟩ => show win0_0.index t (1 : Fin 2) * 128 + 1 * k.val = k.val; rw [f1]; omega

/-- Window 1's block is its whole operand at every grid point. -/
abbrev B1 (c : Dev nD) (t : Fin cfg0.N) : Vec Ideal S256x16 .bf16 := iblk m c 1 t
theorem B1_apply (c : Dev nD) (t : Fin cfg0.N) (r : Fin 256) (k : Fin 16) : B1 m c t (ix2 r k) = Ops.w1t m c (ix2 r k) := by
  obtain ⟨f0, f1, f2, f3, f4, f5, f6, f7, f8, f9, f10, f11, f12, f13, f14, f15, f16, f17, f18, f19, f20, f21, f22, f23, f24, f25⟩ := idx_facts t
  show V m c main_v8 (((cfg0.win 1).blk t).view.emb (ix2 r k)) = V m c main_v8 (ix2 r k)
  refine congrArg _ (funext fun a => Fin.ext ?_)
  match a with
  | ⟨0, _⟩ => show win0_1.index t (0 : Fin 2) * 256 + 1 * r.val = r.val; rw [f2]; omega
  | ⟨1, _⟩ => show win0_1.index t (1 : Fin 2) * 16 + 1 * k.val = k.val; rw [f3]; omega

/-- Window 2's block is its whole operand at every grid point. -/
abbrev B2 (c : Dev nD) (t : Fin cfg0.N) : Vec Ideal S256x1 .f32 := iblk m c 2 t
theorem B2_apply (c : Dev nD) (t : Fin cfg0.N) (r : Fin 256) (k : Fin 1) : B2 m c t (ix2 r k) = Ops.b1c m c (ix2 r k) := by
  obtain ⟨f0, f1, f2, f3, f4, f5, f6, f7, f8, f9, f10, f11, f12, f13, f14, f15, f16, f17, f18, f19, f20, f21, f22, f23, f24, f25⟩ := idx_facts t
  show V m c main_v21 (((cfg0.win 2).blk t).view.emb (ix2 r k)) = V m c main_v21 (ix2 r k)
  refine congrArg _ (funext fun a => Fin.ext ?_)
  match a with
  | ⟨0, _⟩ => show win0_2.index t (0 : Fin 2) * 256 + 1 * r.val = r.val; rw [f4]; omega
  | ⟨1, _⟩ => show win0_2.index t (1 : Fin 2) * 1 + 1 * k.val = k.val; rw [f5]; omega

/-- Window 3's block is its whole operand at every grid point. -/
abbrev B3 (c : Dev nD) (t : Fin cfg0.N) : Vec Ideal S256x256 .bf16 := iblk m c 3 t
theorem B3_apply (c : Dev nD) (t : Fin cfg0.N) (r : Fin 256) (k : Fin 256) : B3 m c t (ix2 r k) = Ops.w2t m c (ix2 r k) := by
  obtain ⟨f0, f1, f2, f3, f4, f5, f6, f7, f8, f9, f10, f11, f12, f13, f14, f15, f16, f17, f18, f19, f20, f21, f22, f23, f24, f25⟩ := idx_facts t
  show V m c main_v11 (((cfg0.win 3).blk t).view.emb (ix2 r k)) = V m c main_v11 (ix2 r k)
  refine congrArg _ (funext fun a => Fin.ext ?_)
  match a with
  | ⟨0, _⟩ => show win0_3.index t (0 : Fin 2) * 256 + 1 * r.val = r.val; rw [f6]; omega
  | ⟨1, _⟩ => show win0_3.index t (1 : Fin 2) * 256 + 1 * k.val = k.val; rw [f7]; omega

/-- Window 4's block is its whole operand at every grid point. -/
abbrev B4 (c : Dev nD) (t : Fin cfg0.N) : Vec Ideal S256x1 .f32 := iblk m c 4 t
theorem B4_apply (c : Dev nD) (t : Fin cfg0.N) (r : Fin 256) (k : Fin 1) : B4 m c t (ix2 r k) = Ops.b2c m c (ix2 r k) := by
  obtain ⟨f0, f1, f2, f3, f4, f5, f6, f7, f8, f9, f10, f11, f12, f13, f14, f15, f16, f17, f18, f19, f20, f21, f22, f23, f24, f25⟩ := idx_facts t
  show V m c main_v25 (((cfg0.win 4).blk t).view.emb (ix2 r k)) = V m c main_v25 (ix2 r k)
  refine congrArg _ (funext fun a => Fin.ext ?_)
  match a with
  | ⟨0, _⟩ => show win0_4.index t (0 : Fin 2) * 256 + 1 * r.val = r.val; rw [f8]; omega
  | ⟨1, _⟩ => show win0_4.index t (1 : Fin 2) * 1 + 1 * k.val = k.val; rw [f9]; omega

/-- Window 5's block is its whole operand at every grid point. -/
abbrev B5 (c : Dev nD) (t : Fin cfg0.N) : Vec Ideal S256x256 .bf16 := iblk m c 5 t
theorem B5_apply (c : Dev nD) (t : Fin cfg0.N) (r : Fin 256) (k : Fin 256) : B5 m c t (ix2 r k) = Ops.w3t m c (ix2 r k) := by
  obtain ⟨f0, f1, f2, f3, f4, f5, f6, f7, f8, f9, f10, f11, f12, f13, f14, f15, f16, f17, f18, f19, f20, f21, f22, f23, f24, f25⟩ := idx_facts t
  show V m c main_v14 (((cfg0.win 5).blk t).view.emb (ix2 r k)) = V m c main_v14 (ix2 r k)
  refine congrArg _ (funext fun a => Fin.ext ?_)
  match a with
  | ⟨0, _⟩ => show win0_5.index t (0 : Fin 2) * 256 + 1 * r.val = r.val; rw [f10]; omega
  | ⟨1, _⟩ => show win0_5.index t (1 : Fin 2) * 256 + 1 * k.val = k.val; rw [f11]; omega

/-- Window 6's block is its whole operand at every grid point. -/
abbrev B6 (c : Dev nD) (t : Fin cfg0.N) : Vec Ideal S256x1 .f32 := iblk m c 6 t
theorem B6_apply (c : Dev nD) (t : Fin cfg0.N) (r : Fin 256) (k : Fin 1) : B6 m c t (ix2 r k) = Ops.b3c m c (ix2 r k) := by
  obtain ⟨f0, f1, f2, f3, f4, f5, f6, f7, f8, f9, f10, f11, f12, f13, f14, f15, f16, f17, f18, f19, f20, f21, f22, f23, f24, f25⟩ := idx_facts t
  show V m c main_v29 (((cfg0.win 6).blk t).view.emb (ix2 r k)) = V m c main_v29 (ix2 r k)
  refine congrArg _ (funext fun a => Fin.ext ?_)
  match a with
  | ⟨0, _⟩ => show win0_6.index t (0 : Fin 2) * 256 + 1 * r.val = r.val; rw [f12]; omega
  | ⟨1, _⟩ => show win0_6.index t (1 : Fin 2) * 1 + 1 * k.val = k.val; rw [f13]; omega

/-- Window 7's block is its whole operand at every grid point. -/
abbrev B7 (c : Dev nD) (t : Fin cfg0.N) : Vec Ideal S12x256 .bf16 := iblk m c 7 t
theorem B7_apply (c : Dev nD) (t : Fin cfg0.N) (r : Fin 12) (k : Fin 256) : B7 m c t (ix2 r k) = Ops.w4t m c (ix2 r k) := by
  obtain ⟨f0, f1, f2, f3, f4, f5, f6, f7, f8, f9, f10, f11, f12, f13, f14, f15, f16, f17, f18, f19, f20, f21, f22, f23, f24, f25⟩ := idx_facts t
  show V m c main_v17 (((cfg0.win 7).blk t).view.emb (ix2 r k)) = V m c main_v17 (ix2 r k)
  refine congrArg _ (funext fun a => Fin.ext ?_)
  match a with
  | ⟨0, _⟩ => show win0_7.index t (0 : Fin 2) * 12 + 1 * r.val = r.val; rw [f14]; omega
  | ⟨1, _⟩ => show win0_7.index t (1 : Fin 2) * 256 + 1 * k.val = k.val; rw [f15]; omega

/-- Window 8's block is its whole operand at every grid point. -/
abbrev B8 (c : Dev nD) (t : Fin cfg0.N) : Vec Ideal S12x1 .f32 := iblk m c 8 t
theorem B8_apply (c : Dev nD) (t : Fin cfg0.N) (r : Fin 12) (k : Fin 1) : B8 m c t (ix2 r k) = Ops.b4c m c (ix2 r k) := by
  obtain ⟨f0, f1, f2, f3, f4, f5, f6, f7, f8, f9, f10, f11, f12, f13, f14, f15, f16, f17, f18, f19, f20, f21, f22, f23, f24, f25⟩ := idx_facts t
  show V m c main_v33 (((cfg0.win 8).blk t).view.emb (ix2 r k)) = V m c main_v33 (ix2 r k)
  refine congrArg _ (funext fun a => Fin.ext ?_)
  match a with
  | ⟨0, _⟩ => show win0_8.index t (0 : Fin 2) * 12 + 1 * r.val = r.val; rw [f16]; omega
  | ⟨1, _⟩ => show win0_8.index t (1 : Fin 2) * 1 + 1 * k.val = k.val; rw [f17]; omega

/-- Window 9's block is its whole operand at every grid point. -/
abbrev B9 (c : Dev nD) (t : Fin cfg0.N) : Vec Ideal S128x1 .f32 := iblk m c 9 t
theorem B9_apply (c : Dev nD) (t : Fin cfg0.N) (r : Fin 128) (k : Fin 1) : B9 m c t (ix2 r k) = Ops.lo m c (ix2 r k) := by
  obtain ⟨f0, f1, f2, f3, f4, f5, f6, f7, f8, f9, f10, f11, f12, f13, f14, f15, f16, f17, f18, f19, f20, f21, f22, f23, f24, f25⟩ := idx_facts t
  show V m c main_v42 (((cfg0.win 9).blk t).view.emb (ix2 r k)) = V m c main_v42 (ix2 r k)
  refine congrArg _ (funext fun a => Fin.ext ?_)
  match a with
  | ⟨0, _⟩ => show win0_9.index t (0 : Fin 2) * 128 + 1 * r.val = r.val; rw [f18]; omega
  | ⟨1, _⟩ => show win0_9.index t (1 : Fin 2) * 1 + 1 * k.val = k.val; rw [f19]; omega

/-- Window 10's block is its whole operand at every grid point. -/
abbrev B10 (c : Dev nD) (t : Fin cfg0.N) : Vec Ideal S128x1 .f32 := iblk m c 10 t
theorem B10_apply (c : Dev nD) (t : Fin cfg0.N) (r : Fin 128) (k : Fin 1) : B10 m c t (ix2 r k) = Ops.hi m c (ix2 r k) := by
  obtain ⟨f0, f1, f2, f3, f4, f5, f6, f7, f8, f9, f10, f11, f12, f13, f14, f15, f16, f17, f18, f19, f20, f21, f22, f23, f24, f25⟩ := idx_facts t
  show V m c main_v50 (((cfg0.win 10).blk t).view.emb (ix2 r k)) = V m c main_v50 (ix2 r k)
  refine congrArg _ (funext fun a => Fin.ext ?_)
  match a with
  | ⟨0, _⟩ => show win0_10.index t (0 : Fin 2) * 128 + 1 * r.val = r.val; rw [f20]; omega
  | ⟨1, _⟩ => show win0_10.index t (1 : Fin 2) * 1 + 1 * k.val = k.val; rw [f21]; omega

/-- Window 11's block is its whole operand at every grid point. -/
abbrev B11 (c : Dev nD) (t : Fin cfg0.N) : Vec Ideal S96x128 .f32 := iblk m c 11 t
theorem B11_apply (c : Dev nD) (t : Fin cfg0.N) (r : Fin 96) (k : Fin 128) : B11 m c t (ix2 r k) = Ops.cnt m c (ix2 r k) := by
  obtain ⟨f0, f1, f2, f3, f4, f5, f6, f7, f8, f9, f10, f11, f12, f13, f14, f15, f16, f17, f18, f19, f20, f21, f22, f23, f24, f25⟩ := idx_facts t
  show V m c main_v65 (((cfg0.win 11).blk t).view.emb (ix2 r k)) = V m c main_v65 (ix2 r k)
  refine congrArg _ (funext fun a => Fin.ext ?_)
  match a with
  | ⟨0, _⟩ => show win0_11.index t (0 : Fin 2) * 96 + 1 * r.val = r.val; rw [f22]; omega
  | ⟨1, _⟩ => show win0_11.index t (1 : Fin 2) * 128 + 1 * k.val = k.val; rw [f23]; omega

/-! ## The array the kernel call leaves -/

/-- Row R of the kernel call's result holds, at column o, output o % 3 of the point 32 R + o / 3. -/
def G (c : Dev nD) : S65536x96.Idx → EReal := fun i =>
  Spec.result (Args.xt m c) (Args.bounds m c) (Args.W1 m c) (Args.b1 m c) (Args.W2 m c) (Args.b2 m c) (Args.W3 m c) (Args.b3 m c) (Args.W4 m c) (Args.b4 m c)
    (ix2 ⟨32 * (i 0).val + (i 1).val / 3, by have h0 : (i 0).val < 65536 := (i 0).isLt; have h1 : (i 1).val < 96 := (i 1).isLt; omega⟩
      ⟨(i 1).val % 3, Nat.mod_lt _ (by decide)⟩)

theorem lt96 (q : Fin 8) (p : Fin 4) (j : Fin 3) : 12 * q.val + (3 * p.val + j.val) < 96 := by
  have := q.isLt; have := p.isLt; have := j.isLt; omega

/-- A column of the result is output j of point 4 q + p of its row, for one (q, p, j). -/
theorem split96 (o : Fin 96) : ∃ (q : Fin 8) (p : Fin 4) (j : Fin 3), o = ⟨12 * q.val + (3 * p.val + j.val), lt96 q p j⟩ :=
  ⟨⟨o.val / 12, by have := o.isLt; omega⟩, ⟨o.val % 12 / 3, by have := o.isLt; omega⟩, ⟨o.val % 3, Nat.mod_lt _ (by decide)⟩,
    Fin.ext (by show o.val = 12 * (o.val / 12) + (3 * (o.val % 12 / 3) + o.val % 3); omega)⟩

/-- One grid point's stored block, entry by entry, is that function at the block's rows. -/
theorem blk_val (c : Dev nD) (t : Fin cfg0.N) (col : Fin 256) (o : Fin 96) :
    out0_12 (B0 m c t) (B1 m c t) (B2 m c t) (B3 m c t) (B4 m c t) (B5 m c t) (B6 m c t) (B7 m c t) (B8 m c t) (B9 m c t) (B10 m c t) (B11 m c t) (ix2 col o)
      = G m c (ix2 ⟨256 * t.val + col.val, by have := t_lt t; have := col.isLt; omega⟩ o) := by
  refine (congrFun (Body.out_eq (F := Ideal) (B0 m c t) (B1 m c t) (B2 m c t) (B3 m c t) (B4 m c t) (B5 m c t) (B6 m c t) (B7 m c t) (B8 m c t) (B9 m c t) (B10 m c t) (B11 m c t)) (ix2 col o)).trans ?_
  obtain ⟨q, p, j, rfl⟩ := split96 o
  refine (Body.bodyT_apply (Args.W1 m c) (Args.b1 m c) (Args.W2 m c) (Args.b2 m c) (Args.W3 m c) (Args.b3 m c) (Args.W4 m c) (Args.b4 m c) (Args.bounds m c) (B0 m c t) (B1 m c t) (B2 m c t) (B3 m c t) (B4 m c t) (B5 m c t) (B6 m c t) (B7 m c t) (B8 m c t) (B9 m c t) (B10 m c t) (B11 m c t)
    (fun r k => (B1_apply m c t r k).trans (HostW.w1t_apply m c r k)) (fun r => (B2_apply m c t r 0).trans (HostB.b1c_apply m c r))
    (fun r k => (B3_apply m c t r k).trans (HostW.w2t_apply m c r k)) (fun r => (B4_apply m c t r 0).trans (HostB.b2c_apply m c r))
    (fun r k => (B5_apply m c t r k).trans (HostW.w3t_apply m c r k)) (fun r => (B6_apply m c t r 0).trans (HostB.b3c_apply m c r))
    (fun r k => (B7_apply m c t r k).trans (HostW.w4t_apply m c r k)) (fun r => (B8_apply m c t r 0).trans (HostB.b4c_apply m c r))
    (fun ci h => (B9_apply m c t ci 0).trans (HostB.lo_apply m c ci h)) (fun ci h => (B10_apply m c t ci 0).trans (HostB.hi_apply m c ci h))
    (fun o ci => (B11_apply m c t o ci).trans (HostE.e_apply m c o ci)) q p j col).trans ?_
  have hq := q.isLt; have hp := p.isLt; have hj := j.isLt; have ht := t_lt t; have hcol := col.isLt
  have hX : (fun k : Fin 4 => B0 m c t (ix2 col ⟨16 * q.val + (4 * p.val + k.val), by have := k.isLt; omega⟩))
      = (fun k : Fin 4 => Args.xt m c (ix2 ⟨32 * (256 * t.val + col.val) + (12 * q.val + (3 * p.val + j.val)) / 3, by omega⟩ k)) :=
    funext fun k => by
      have hk := k.isLt
      rw [B0_apply, HostB.x32_apply]
      exact congrArg (Args.xt m c) (Shape.idx_ext₂ (by show 32 * (256 * t.val + col.val) + (16 * q.val + (4 * p.val + k.val)) / 4 = 32 * (256 * t.val + col.val) + (12 * q.val + (3 * p.val + j.val)) / 3; omega)
        (by show (16 * q.val + (4 * p.val + k.val)) % 4 = k.val; omega))
  have hJ : (⟨(12 * q.val + (3 * p.val + j.val)) % 3, Nat.mod_lt _ (by decide)⟩ : Fin 3) = j := Fin.ext (by show (12 * q.val + (3 * p.val + j.val)) % 3 = j.val; omega)
  unfold G Spec.result
  dsimp only
  rw [hX, hJ]

/-- What grid point t writes back is block t of that function. -/
theorem flushed_eq (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  obtain ⟨f0, f1, f2, f3, f4, f5, f6, f7, f8, f9, f10, f11, f12, f13, f14, f15, f16, f17, f18, f19, f20, f21, f22, f23, f24, f25⟩ := idx_facts t
  funext y
  have hemb : ((cfg0.win 12).blk t).view.emb y = ix2 ⟨256 * t.val + (y 0).val, by have := t_lt t; have h0 : (y 0).val < 256 := (y 0).isLt; omega⟩ (y 1) :=
    funext fun a => Fin.ext (by
      match a with
      | ⟨0, _⟩ => show win0_12.index t (0 : Fin 2) * 256 + 1 * (y 0).val = 256 * t.val + (y 0).val; rw [f24]; omega
      | ⟨1, _⟩ => show win0_12.index t (1 : Fin 2) * 96 + 1 * (y 1).val = (y 1).val; rw [f25]; omega)
  show out0_12 (B0 m c t) (B1 m c t) (B2 m c t) (B3 m c t) (B4 m c t) (B5 m c t) (B6 m c t) (B7 m c t) (B8 m c t) (B9 m c t) (B10 m c t) (B11 m c t) y = G m c (((cfg0.win 12).blk t).view.emb y)
  rw [hemb]
  exact (congrArg (out0_12 (B0 m c t) (B1 m c t) (B2 m c t) (B3 m c t) (B4 m c t) (B5 m c t) (B6 m c t) (B7 m c t) (B8 m c t) (B9 m c t) (B10 m c t) (B11 m c t)) (eq_ix2 y)).trans (blk_val m c t (y 0) (y 1))

/-- An index of the result lies in point t's block exactly when each coordinate lies in the block's range. -/
theorem mem_blk (t : Fin cfg0.N) (i : S65536x96.Idx) :
    i ∈ ((cfg0.win 12).blk t).view.set ↔ ∀ a : Fin 2, win0_12.index t a * S256x96.size a ≤ (i a).val ∧ (i a).val < win0_12.index t a * S256x96.size a + S256x96.size a := by
  show i ∈ ((View.whole main_v67).slice (win0_12.rect t)).set ↔ _
  rw [View.set_slice_whole, Rect.mem_set_unit]
  exact Iff.rfl

/-- The 256 blocks tile the result: row R lies in the block of point R / 256. -/
theorem cover (i : S65536x96.Idx) : ∃ t : Fin cfg0.N, (cfg0.win 12).flush t = true ∧ i ∈ ((cfg0.win 12).blk t).view.set := by
  have h0 : (i 0).val < 65536 := (i 0).isLt
  have h1 : (i 1).val < 96 := (i 1).isLt
  let t : Fin cfg0.N := ⟨(i 0).val / 256, Nat.lt_of_lt_of_eq (by omega) N_0.symm⟩
  obtain ⟨f0, f1, f2, f3, f4, f5, f6, f7, f8, f9, f10, f11, f12, f13, f14, f15, f16, f17, f18, f19, f20, f21, f22, f23, f24, f25⟩ := idx_facts t
  refine ⟨t, flush0_12 t, ?_⟩
  rw [mem_blk]
  intro a
  match a with
  | ⟨0, _⟩ => show win0_12.index t (0 : Fin 2) * 256 ≤ (i 0).val ∧ (i 0).val < win0_12.index t (0 : Fin 2) * 256 + 256; rw [f24]; show (i 0).val / 256 * 256 ≤ (i 0).val ∧ (i 0).val < (i 0).val / 256 * 256 + 256; omega
  | ⟨1, _⟩ => show win0_12.index t (1 : Fin 2) * 96 ≤ (i 1).val ∧ (i 1).val < win0_12.index t (1 : Fin 2) * 96 + 96; rw [f25]; omega

/-- The kernel call's result after the run. -/
theorem final (c : Dev nD) : (dats m 0 c).arrAt 12 cfg0.N = G m c :=
  (dats m 0 c).arrAt_eq_of_cover 12 (G m c) (fun t _ => flushed_eq m c t) (cover)

/-! ## The host's last line -/

/-- Read row-major as 2097152 rows of three, the kernel call's result is the specification's. -/
theorem reshape_G (c : Dev nD) :
    shapeCast S2097152x3 (G m c) shapeCasts_S65536x96_S2097152x3
      = Spec.result (Args.xt m c) (Args.bounds m c) (Args.W1 m c) (Args.b1 m c) (Args.W2 m c) (Args.b2 m c) (Args.W3 m c) (Args.b3 m c) (Args.W4 m c) (Args.b4 m c) := by
  funext i
  obtain ⟨P, j, rfl⟩ : ∃ (P : Fin 2097152) (j : Fin 3), i = ix2 P j := ⟨i 0, i 1, eq_ix2 i⟩
  have hP := P.isLt; have hj := j.isLt
  rw [shapeCast_apply (G m c) shapeCasts_S65536x96_S2097152x3 (ix2 P j) (ix2 ⟨P.val / 32, by omega⟩ ⟨3 * (P.val % 32) + j.val, by omega⟩)
    (by rw [Shape.rowMajor_val_two, Shape.rowMajor_val_two]; show (P.val / 32) * 96 + (3 * (P.val % 32) + j.val) = P.val * 3 + j.val; omega)]
  unfold G
  exact congrArg _ (Shape.idx_ext₂ (by show 32 * (P.val / 32) + (3 * (P.val % 32) + j.val) / 3 = P.val; omega)
    (by show (3 * (P.val % 32) + j.val) % 3 = j.val; omega))

/-- The result buffer after the host's last line. -/
theorem tail_eq (c : Dev nD) :
    Pipeline.afterTail₀ cfgs (dats m) 0 (V0 m) [hostOps1] c main_v68
      = Spec.result (Args.xt m c) (Args.bounds m c) (Args.W1 m c) (Args.b1 m c) (Args.W2 m c) (Args.b2 m c) (Args.W3 m c) (Args.b3 m c) (Args.W4 m c) (Args.b4 m c) := by
  unfold Pipeline.afterTail₀
  show StableHlo.after hostOps1 _ (Proc.devRef .tc main_v68) = _
  after_results
  exact (congrArg (fun x => shapeCast S2097152x3 x shapeCasts_S65536x96_S2097152x3)
    ((Pipeline.withArrays_arr spec0 launch0.win.arr_inj c _ _ 12).trans (final m c))).trans (reshape_G m c)

/-! ## The run -/

/-- Every weakly fair execution of the kernel program ends with the result buffer at the specification's result and the
    arguments unchanged. -/
theorem run : θ_run defs (onTc (τ := τ) (main (F := Ideal))) ⟨m, fun _ => 0, ρ⟩ (fun r => ∀ c : Dev nD,
      r.2.mem ((c.tc : Thread nD τ).loc main_v68) = Spec.result (Args.xt m c) (Args.bounds m c) (Args.W1 m c) (Args.b1 m c) (Args.W2 m c) (Args.b2 m c) (Args.W3 m c) (Args.b3 m c) (Args.W4 m c) (Args.b4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v68 (Pipeline.mem_restRefs_of main_v68 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Arr

end
-- ==== Proof.lean ====
/-
  The certificate's proof: the packed, masked kernel and the plain reference compute one function.

  Both programs send each point (x, y, z, t) through the same four-layer perceptron and zero the result when (x, y, z) leaves
  the box.  The kernel packs four points to a matrix column with block-diagonal weights (Kronecker products with the 4 × 4
  identity); off-diagonal blocks contribute `0 · x = 0`, which holds for every extended real, so the packed sums are the plain
  ones and no finiteness is used.  Its mask counts, by a 0/1 matrix product, how many of a point's first three coordinates lie
  within bounds and keeps the output where the count is three; the fourth coordinate's sentinel bounds are multiplied by zero.
  The reference's mask is the or-reduction of "below the lower corner or above the upper corner", the same test negated.
  Each program's run is read at the specification's result (Proof/Spec.lean): the kernel's through its 256 grid points' blocks
  and the host's last reshape (Proof/Arr.lean), the reference's stage by stage (Proof/RefValue.lean).
  The idealization changed nothing in the kernel's text, so the preservation conjunct is `True`.
-/
import proofs.«117370_g24309514896056_cont_sun_c4_343_38_alg».proof.Defs
import proofs.«117370_g24309514896056_cont_sun_c4_343_38_alg».proof.Proof.Gen.Kernel
import proofs.«117370_g24309514896056_cont_sun_c4_343_38_alg».proof.Proof.Gen.Kernel.Skeleton
import proofs.«117370_g24309514896056_cont_sun_c4_343_38_alg».proof.Proof.Gen.Kernel.Launch
import proofs.«117370_g24309514896056_cont_sun_c4_343_38_alg».proof.Proof.Gen.Kernel.Points
import proofs.«117370_g24309514896056_cont_sun_c4_343_38_alg».proof.Proof.Gen.Kernel.Frame
import proofs.«117370_g24309514896056_cont_sun_c4_343_38_alg».proof.Proof.Gen.KernelIdeal
import proofs.«117370_g24309514896056_cont_sun_c4_343_38_alg».proof.Proof.Gen.KernelIdeal.Skeleton
import proofs.«117370_g24309514896056_cont_sun_c4_343_38_alg».proof.Proof.Gen.KernelIdeal.Launch
import proofs.«117370_g24309514896056_cont_sun_c4_343_38_alg».proof.Proof.Gen.KernelIdeal.Points
import proofs.«117370_g24309514896056_cont_sun_c4_343_38_alg».proof.Proof.Gen.KernelIdeal.Frame
import proofs.«117370_g24309514896056_cont_sun_c4_343_38_alg».proof.Proof.Gen.ReferenceIdeal
import proofs.«117370_g24309514896056_cont_sun_c4_343_38_alg».proof.Proof.Gen.Pre_finite_inputs
import proofs.«117370_g24309514896056_cont_sun_c4_343_38_alg».proof.Proof.RefRun
import proofs.«117370_g24309514896056_cont_sun_c4_343_38_alg».proof.Proof.RefRead
import proofs.«117370_g24309514896056_cont_sun_c4_343_38_alg».proof.Proof.RefValue
import proofs.«117370_g24309514896056_cont_sun_c4_343_38_alg».proof.Proof.Arr
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From arguments that agree, both runs end at the specification's result of those arguments. -/
theorem algebraic : Cert.algebraic_KernelIdeal_ReferenceIdeal := by
  intro m ρ m' ρ' _ hagree
  refine ⟨fun c => Spec.result (Cert.KernelIdeal.Args.xt m c) (Cert.KernelIdeal.Args.bounds m c) (Cert.KernelIdeal.Args.W1 m c) (Cert.KernelIdeal.Args.b1 m c)
    (Cert.KernelIdeal.Args.W2 m c) (Cert.KernelIdeal.Args.b2 m c) (Cert.KernelIdeal.Args.W3 m c) (Cert.KernelIdeal.Args.b3 m c)
    (Cert.KernelIdeal.Args.W4 m c) (Cert.KernelIdeal.Args.b4 m c), Cert.KernelIdeal.Arr.run m ρ, ?_⟩
  refine (θ_run Cert.ReferenceIdeal.defs _ _).mono (fun _ h c => ⟨(h c).1.trans ?_, (h c).2⟩)
    (Cert.ReferenceIdeal.ValueP.run (F := Ideal) m' ρ')
  refine ((Cert.ReferenceIdeal.ReadP.val_main_v34_eq (F := Ideal) _ _ _ _ _ _ _ _ _ _).trans
    (Cert.ReferenceIdeal.RefValue.ref_eq_result _ _ _ _ _ _ _ _ _ _)).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
